-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x1 .f32) (main_arg1 : IVec S2x3200000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x1 : Shape := ⟨2, ![5000, 1]⟩
abbrev S5000x16 : Shape := ⟨2, ![5000, 16]⟩
abbrev S3300000x16 : Shape := ⟨2, ![3300000, 16]⟩
abbrev S3301376x16 : Shape := ⟨2, ![3301376, 16]⟩
abbrev S3301376x1 : Shape := ⟨2, ![3301376, 1]⟩
abbrev S8192x16 : Shape := ⟨2, ![8192, 16]⟩
abbrev S8192x1 : Shape := ⟨2, ![8192, 1]⟩
abbrev S100000x2 : Shape := ⟨2, ![100000, 2]⟩
abbrev S5000x2 : Shape := ⟨2, ![5000, 2]⟩
abbrev S3300000x2 : Shape := ⟨2, ![3300000, 2]⟩
abbrev S3301376x2 : Shape := ⟨2, ![3301376, 2]⟩
abbrev S8192x2 : Shape := ⟨2, ![8192, 2]⟩
abbrev S1x2 : Shape := ⟨2, ![1, 2]⟩

abbrev nBuf : Space → Nat
  | .hbm => 98
  | .vmem => 32
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S_, .i32⟩
  | .hbm, ⟨61, _⟩ => ⟨S_, .f32⟩
  | .hbm, ⟨62, _⟩ => ⟨S3301376x16, .f32⟩
  | .hbm, ⟨63, _⟩ => ⟨S_, .i32⟩
  | .hbm, ⟨64, _⟩ => ⟨S_, .f32⟩
  | .hbm, ⟨65, _⟩ => ⟨S3301376x1, .f32⟩
  | .hbm, ⟨66, _⟩ => ⟨S3301376x16, .f32⟩
  | .hbm, ⟨67, _⟩ => ⟨S3300000x16, .f32⟩
  | .hbm, ⟨68, _⟩ => ⟨S_, .f32⟩
  | .hbm, ⟨69, _⟩ => ⟨S100000x16, .f32⟩
  | .hbm, ⟨70, _⟩ => ⟨S3300000x1, .i32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x2, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x2, .f32⟩
  | .hbm, ⟨84, _⟩ => ⟨S_, .i32⟩
  | .hbm, ⟨85, _⟩ => ⟨S_, .f32⟩
  | .hbm, ⟨86, _⟩ => ⟨S3301376x2, .f32⟩
  | .hbm, ⟨87, _⟩ => ⟨S_, .i32⟩
  | .hbm, ⟨88, _⟩ => ⟨S_, .f32⟩
  | .hbm, ⟨89, _⟩ => ⟨S3301376x1, .f32⟩
  | .hbm, ⟨90, _⟩ => ⟨S3301376x2, .f32⟩
  | .hbm, ⟨91, _⟩ => ⟨S3300000x2, .f32⟩
  | .hbm, ⟨92, _⟩ => ⟨S_, .f32⟩
  | .hbm, ⟨93, _⟩ => ⟨S100000x2, .f32⟩
  | .hbm, ⟨94, _⟩ => ⟨S3300000x1, .i32⟩
  | .hbm, ⟨95, _⟩ => ⟨S100000x2, .f32⟩
  | .hbm, ⟨96, _⟩ => ⟨S1x2, .f32⟩
  | .hbm, ⟨97, _⟩ => ⟨S100000x2, .f32⟩
  | .local _ .vmem, ⟨0, _⟩ => ⟨S5000x1, .f32⟩
  | .local _ .vmem, ⟨1, _⟩ => ⟨S5000x1, .f32⟩
  | .local _ .vmem, ⟨2, _⟩ => ⟨S1x16, .f32⟩
  | .local _ .vmem, ⟨3, _⟩ => ⟨S5000x16, .f32⟩
  | .local _ .vmem, ⟨4, _⟩ => ⟨S5000x16, .f32⟩
  | .local _ .vmem, ⟨5, _⟩ => ⟨S8192x16, .f32⟩
  | .local _ .vmem, ⟨6, _⟩ => ⟨S8192x16, .f32⟩
  | .local _ .vmem, ⟨7, _⟩ => ⟨S8192x1, .f32⟩
  | .local _ .vmem, ⟨8, _⟩ => ⟨S8192x1, .f32⟩
  | .local _ .vmem, ⟨9, _⟩ => ⟨S8192x16, .f32⟩
  | .local _ .vmem, ⟨10, _⟩ => ⟨S8192x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x2, .f32⟩
  | .local _ .vmem, ⟨19, _⟩ => ⟨S5000x2, .f32⟩
  | .local _ .vmem, ⟨20, _⟩ => ⟨S5000x2, .f32⟩
  | .local _ .vmem, ⟨21, _⟩ => ⟨S8192x2, .f32⟩
  | .local _ .vmem, ⟨22, _⟩ => ⟨S8192x2, .f32⟩
  | .local _ .vmem, ⟨23, _⟩ => ⟨S8192x1, .f32⟩
  | .local _ .vmem, ⟨24, _⟩ => ⟨S8192x1, .f32⟩
  | .local _ .vmem, ⟨25, _⟩ => ⟨S8192x2, .f32⟩
  | .local _ .vmem, ⟨26, _⟩ => ⟨S8192x2, .f32⟩
  | .local _ .vmem, ⟨27, _⟩ => ⟨S5000x2, .f32⟩
  | .local _ .vmem, ⟨28, _⟩ => ⟨S5000x2, .f32⟩
  | .local _ .vmem, ⟨29, _⟩ => ⟨S1x2, .f32⟩
  | .local _ .vmem, ⟨30, _⟩ => ⟨S5000x2, .f32⟩
  | .local _ .vmem, ⟨31, _⟩ => ⟨S5000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_call1_v0 : Ref sig .tc := ⟨.hbm, 61, rfl⟩
abbrev main_v41 : Ref sig .tc := ⟨.hbm, 62, rfl⟩
abbrev main_c_10 : Ref sig .tc := ⟨.hbm, 63, rfl⟩
abbrev main_call2_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_call3_v0 : Ref sig .tc := ⟨.hbm, 85, rfl⟩
abbrev main_v58 : Ref sig .tc := ⟨.hbm, 86, rfl⟩
abbrev main_c_15 : Ref sig .tc := ⟨.hbm, 87, rfl⟩
abbrev main_call4_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![403], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S5000x16_S5000x16_0_0 : ∀ a, (![0, 0] : Fin 2 → Nat) a + S5000x16.size a ≤ S5000x16.size a
  h_S5000x16 : 0 < S5000x16.numel
  pads_S3300000x16_S3301376x16_013760_000 : S3300000x16.Pads (![0, 0] : Fin 2 → Nat) ![1376, 0] ![0, 0] S3301376x16
  h_S_ : 0 < S_.numel
  pads_S3300000x1_S3301376x1_013760_000 : S3300000x1.Pads (![0, 0] : Fin 2 → Nat) ![1376, 0] ![0, 0] S3301376x1
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  slices_S3301376x16_S3300000x16_0_0 : S3301376x16.Slices ![0, 0] S3300000x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  pads_S3300000x2_S3301376x2_013760_000 : S3300000x2.Pads (![0, 0] : Fin 2 → Nat) ![1376, 0] ![0, 0] S3301376x2
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  broadcasts_S8192x1_S8192x2 : S8192x1.Broadcasts S8192x2
  slices_S3301376x2_S3300000x2_0_0 : S3301376x2.Slices ![0, 0] S3300000x2
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x1_S1x16_S5000x16_1_0_0_1_n_n_wf : DotDims.WF S5000x1 S1x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3301376x16.size a
  hwx1_0 : ∀ i : grid1.Coords, EltTy.bits .f32 = 32 ∨ (Rect.block (s := S3301376x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S3301376x16.size a
  hwx1_2 : ∀ i : grid1.Coords, EltTy.bits .f32 = 32 ∨ (Rect.block (s := S3301376x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x2.size a ≤ S16x2.size a
  hwx3_1 : ∀ i : grid3.Coords, EltTy.bits .f32 = 32 ∨ (Rect.block (s := S16x2) S16x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x2.size a ≤ S3301376x2.size a
  hwx4_0 : ∀ i : grid4.Coords, EltTy.bits .f32 = 32 ∨ (Rect.block (s := S3301376x2) S8192x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S3301376x1.size a
  hwx4_1 : ∀ i : grid4.Coords, EltTy.bits .f32 = 32 ∨ (Rect.block (s := S3301376x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x2.size a ≤ S3301376x2.size a
  hwx4_2 : ∀ i : grid4.Coords, EltTy.bits .f32 = 32 ∨ (Rect.block (s := S3301376x2) S8192x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S100000x2.size a
  hwx5_2 : ∀ i : grid5.Coords, EltTy.bits .f32 = 32 ∨ (Rect.block (s := S100000x2) S5000x2.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S8192x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S8192x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 128
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000, .f32⟩
  | .hbm, ⟨107, _⟩ => ⟨S3300000, .f32⟩
  | .hbm, ⟨108, _⟩ => ⟨S100000x2, .f32⟩
  | .hbm, ⟨109, _⟩ => ⟨S3300000x1, .f32⟩
  | .hbm, ⟨110, _⟩ => ⟨S_, .i32⟩
  | .hbm, ⟨111, _⟩ => ⟨S3300000, .i32⟩
  | .hbm, ⟨112, _⟩ => ⟨S3300000, .i1⟩
  | .hbm, ⟨113, _⟩ => ⟨S_, .i32⟩
  | .hbm, ⟨114, _⟩ => ⟨S3300000, .i32⟩
  | .hbm, ⟨115, _⟩ => ⟨S3300000, .i32⟩
  | .hbm, ⟨116, _⟩ => ⟨S3300000, .i32⟩
  | .hbm, ⟨117, _⟩ => ⟨S3300000x1, .i32⟩
  | .hbm, ⟨118, _⟩ => ⟨S3300000x2, .f32⟩
  | .hbm, ⟨119, _⟩ => ⟨S3300000x2, .f32⟩
  | .hbm, ⟨120, _⟩ => ⟨S3300000x2, .f32⟩
  | .hbm, ⟨121, _⟩ => ⟨S_, .f32⟩
  | .hbm, ⟨122, _⟩ => ⟨S100000x2, .f32⟩
  | .hbm, ⟨123, _⟩ => ⟨S3300000x1, .i32⟩
  | .hbm, ⟨124, _⟩ => ⟨S100000x2, .f32⟩
  | .hbm, ⟨125, _⟩ => ⟨S1x2, .f32⟩
  | .hbm, ⟨126, _⟩ => ⟨S100000x2, .f32⟩
  | .hbm, ⟨127, _⟩ => ⟨S100000x2, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.HostChain.lean ====
/-
  The kernel program's result array as a function of the argument arrays.
  The program is six regions among stretches of host operations; every buffer is written once. Walking
  the boundaries in order, each buffer that a later item reads is named at the boundary after its writer:
  the edge lists with the self loops appended (sources, targets), the normalisation column
  dinv[src] · dinv[dst], the first dense transform x·W1, the scaled messages norm · h[src] (padded to whole
  blocks, scaled, the padding cut off again), their sum per target node, the bias and the clamp at zero, the
  second dense transform, and the same aggregation again. Each is the reference program's stage of the same
  name, so the last one is the reference's result.
-/
import proofs.«156685_j47605417509108_1_alg».proof.Proof.Gen.KernelIdeal.Frame
import proofs.«156685_j47605417509108_1_alg».proof.Proof.RefRead
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 0's entry: the host operations before it -/

set_option maxHeartbeats 4000000 in
theorem src3 (c : Dev nD) : W3 m ρ c (Proc.devRef .tc main_v3) = Cert.ReferenceIdeal.ReadP.val_main_v3 (F := F) (m ((c.tc : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl
set_option maxHeartbeats 4000000 in
theorem dst3 (c : Dev nD) : W3 m ρ c (Proc.devRef .tc main_v6) = Cert.ReferenceIdeal.ReadP.val_main_v6 (F := F) (m ((c.tc : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl
set_option maxHeartbeats 8000000 in
theorem norm3 (c : Dev nD) : W3 m ρ c (Proc.devRef .tc main_v32) = Cert.ReferenceIdeal.ReadP.val_main_v33 (F := F) (m ((c.tc : Thread nD τ).loc main_arg1)) := by
  show StableHlo.after hostOps0_2 (StableHlo.after hostOps0_1 (StableHlo.after hostOps0 (W0 m ρ c))) (Proc.devRef .tc main_v32) = _
  simp only [hostOps0, hostOps0_1, hostOps0_2]
  after_results_simp
  rfl
set_option maxHeartbeats 4000000 in
theorem arg0_3 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  simp only [hostOps0, hostOps0_1, hostOps0_2]
  after_results_simp
set_option maxHeartbeats 4000000 in
theorem arg2_3 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  simp only [hostOps0, hostOps0_1, hostOps0_2]
  after_results_simp
set_option maxHeartbeats 4000000 in
theorem arg3_3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  simp only [hostOps0, hostOps0_1, hostOps0_2]
  after_results_simp
set_option maxHeartbeats 4000000 in
theorem arg4_3 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  simp only [hostOps0, hostOps0_1, hostOps0_2]
  after_results_simp
set_option maxHeartbeats 4000000 in
theorem arg5_3 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  simp only [hostOps0, hostOps0_1, hostOps0_2]
  after_results_simp

/-! ## Region 0's exit: what it does not write is kept -/
theorem src4 (c : Dev nD) : W4 m ρ c (Proc.devRef .tc main_v3) = Cert.ReferenceIdeal.ReadP.val_main_v3 (F := F) (m ((c.tc : Thread nD τ).loc main_arg1)) :=
  (W4_of_ne m ρ c main_v3 (by decide)).trans (src3 m ρ c)
theorem dst4 (c : Dev nD) : W4 m ρ c (Proc.devRef .tc main_v6) = Cert.ReferenceIdeal.ReadP.val_main_v6 (F := F) (m ((c.tc : Thread nD τ).loc main_arg1)) :=
  (W4_of_ne m ρ c main_v6 (by decide)).trans (dst3 m ρ c)
theorem norm4 (c : Dev nD) : W4 m ρ c (Proc.devRef .tc main_v32) = Cert.ReferenceIdeal.ReadP.val_main_v33 (F := F) (m ((c.tc : Thread nD τ).loc main_arg1)) :=
  (W4_of_ne m ρ c main_v32 (by decide)).trans (norm3 m ρ c)
theorem arg34 (c : Dev nD) : W4 m ρ c (Proc.devRef .tc main_arg3) = (m ((c.tc : Thread nD τ).loc main_arg3)) :=
  (W4_of_ne m ρ c main_arg3 (by decide)).trans (arg3_3 m ρ c)
theorem arg44 (c : Dev nD) : W4 m ρ c (Proc.devRef .tc main_arg4) = (m ((c.tc : Thread nD τ).loc main_arg4)) :=
  (W4_of_ne m ρ c main_arg4 (by decide)).trans (arg4_3 m ρ c)
theorem arg54 (c : Dev nD) : W4 m ρ c (Proc.devRef .tc main_arg5) = (m ((c.tc : Thread nD τ).loc main_arg5)) :=
  (W4_of_ne m ρ c main_arg5 (by decide)).trans (arg5_3 m ρ c)

/-! ## Region 1's entry: the gathered rows and the normalisation column, each padded to whole blocks -/

set_option maxHeartbeats 4000000 in
theorem gath8 (c : Dev nD) (h33 : W4 m ρ c (Proc.devRef .tc main_v33) = Cert.ReferenceIdeal.ReadP.val_main_v32 (F := F) (m ((c.tc : Thread nD τ).loc main_arg0)) (m ((c.tc : Thread nD τ).loc main_arg2))) :
    W8 m ρ c (Proc.devRef .tc main_v41) = pad S3301376x16 ![0, 0] ![1376, 0] ![0, 0] (Cert.ReferenceIdeal.ReadP.val_main_v40 (F := F) (m ((c.tc : Thread nD τ).loc main_arg0)) (m ((c.tc : Thread nD τ).loc main_arg1)) (m ((c.tc : Thread nD τ).loc main_arg2)))
      (sitofp (F := F) .f32 (constantI S_ 32 0#32)) pads_S3300000x16_S3301376x16_013760_000 h_S_ := by
  show StableHlo.after hostOps1_3 (StableHlo.after hostOps1_2 (StableHlo.after hostOps1_1 (StableHlo.after hostOps1 (W4 m ρ c)))) (Proc.devRef .tc main_v41) = _
  simp only [hostOps1, hostOps1_1, hostOps1_2, hostOps1_3]
  after_results_simp
  simp only [TRef.ofBuf, TRef.toBuf, cast_eq]
  rw [h33, src4 m ρ c]
  rfl
set_option maxHeartbeats 4000000 in
theorem npad8 (c : Dev nD) :
    W8 m ρ c (Proc.devRef .tc main_v42) = pad S3301376x1 ![0, 0] ![1376, 0] ![0, 0] (Cert.ReferenceIdeal.ReadP.val_main_v33 (F := F) (m ((c.tc : Thread nD τ).loc main_arg1)))
      (sitofp (F := F) .f32 (constantI S_ 32 0#32)) pads_S3300000x1_S3301376x1_013760_000 h_S_ := by
  show StableHlo.after hostOps1_3 (StableHlo.after hostOps1_2 (StableHlo.after hostOps1_1 (StableHlo.after hostOps1 (W4 m ρ c)))) (Proc.devRef .tc main_v42) = _
  simp only [hostOps1, hostOps1_1, hostOps1_2, hostOps1_3]
  after_results_simp
  simp only [TRef.ofBuf, TRef.toBuf, cast_eq]
  rw [norm4 m ρ c]
theorem src8 (c : Dev nD) : W8 m ρ c (Proc.devRef .tc main_v3) = Cert.ReferenceIdeal.ReadP.val_main_v3 (F := F) (m ((c.tc : Thread nD τ).loc main_arg1)) := by
  refine Eq.trans ?_ (src4 m ρ c)
  show StableHlo.after hostOps1_3 (StableHlo.after hostOps1_2 (StableHlo.after hostOps1_1 (StableHlo.after hostOps1 (W4 m ρ c)))) (Proc.devRef .tc main_v3) = _
  simp only [hostOps1, hostOps1_1, hostOps1_2, hostOps1_3]
  after_results_simp
theorem dst8 (c : Dev nD) : W8 m ρ c (Proc.devRef .tc main_v6) = Cert.ReferenceIdeal.ReadP.val_main_v6 (F := F) (m ((c.tc : Thread nD τ).loc main_arg1)) := by
  refine Eq.trans ?_ (dst4 m ρ c)
  show StableHlo.after hostOps1_3 (StableHlo.after hostOps1_2 (StableHlo.after hostOps1_1 (StableHlo.after hostOps1 (W4 m ρ c)))) (Proc.devRef .tc main_v6) = _
  simp only [hostOps1, hostOps1_1, hostOps1_2, hostOps1_3]
  after_results_simp
theorem norm8 (c : Dev nD) : W8 m ρ c (Proc.devRef .tc main_v32) = Cert.ReferenceIdeal.ReadP.val_main_v33 (F := F) (m ((c.tc : Thread nD τ).loc main_arg1)) := by
  refine Eq.trans ?_ (norm4 m ρ c)
  show StableHlo.after hostOps1_3 (StableHlo.after hostOps1_2 (StableHlo.after hostOps1_1 (StableHlo.after hostOps1 (W4 m ρ c)))) (Proc.devRef .tc main_v32) = _
  simp only [hostOps1, hostOps1_1, hostOps1_2, hostOps1_3]
  after_results_simp
theorem arg38 (c : Dev nD) : W8 m ρ c (Proc.devRef .tc main_arg3) = (m ((c.tc : Thread nD τ).loc main_arg3)) := by
  refine Eq.trans ?_ (arg34 m ρ c)
  show StableHlo.after hostOps1_3 (StableHlo.after hostOps1_2 (StableHlo.after hostOps1_1 (StableHlo.after hostOps1 (W4 m ρ c)))) (Proc.devRef .tc main_arg3) = _
  simp only [hostOps1, hostOps1_1, hostOps1_2, hostOps1_3]
  after_results_simp
theorem arg48 (c : Dev nD) : W8 m ρ c (Proc.devRef .tc main_arg4) = (m ((c.tc : Thread nD τ).loc main_arg4)) := by
  refine Eq.trans ?_ (arg44 m ρ c)
  show StableHlo.after hostOps1_3 (StableHlo.after hostOps1_2 (StableHlo.after hostOps1_1 (StableHlo.after hostOps1 (W4 m ρ c)))) (Proc.devRef .tc main_arg4) = _
  simp only [hostOps1, hostOps1_1, hostOps1_2, hostOps1_3]
  after_results_simp
theorem arg58 (c : Dev nD) : W8 m ρ c (Proc.devRef .tc main_arg5) = (m ((c.tc : Thread nD τ).loc main_arg5)) := by
  refine Eq.trans ?_ (arg54 m ρ c)
  show StableHlo.after hostOps1_3 (StableHlo.after hostOps1_2 (StableHlo.after hostOps1_1 (StableHlo.after hostOps1 (W4 m ρ c)))) (Proc.devRef .tc main_arg5) = _
  simp only [hostOps1, hostOps1_1, hostOps1_2, hostOps1_3]
  after_results_simp

/-! ## Region 1's exit -/
theorem src9 (c : Dev nD) : W9 m ρ c (Proc.devRef .tc main_v3) = Cert.ReferenceIdeal.ReadP.val_main_v3 (F := F) (m ((c.tc : Thread nD τ).loc main_arg1)) :=
  (W9_of_ne m ρ c main_v3 (by decide)).trans (src8 m ρ c)
theorem dst9 (c : Dev nD) : W9 m ρ c (Proc.devRef .tc main_v6) = Cert.ReferenceIdeal.ReadP.val_main_v6 (F := F) (m ((c.tc : Thread nD τ).loc main_arg1)) :=
  (W9_of_ne m ρ c main_v6 (by decide)).trans (dst8 m ρ c)
theorem norm9 (c : Dev nD) : W9 m ρ c (Proc.devRef .tc main_v32) = Cert.ReferenceIdeal.ReadP.val_main_v33 (F := F) (m ((c.tc : Thread nD τ).loc main_arg1)) :=
  (W9_of_ne m ρ c main_v32 (by decide)).trans (norm8 m ρ c)
theorem arg39 (c : Dev nD) : W9 m ρ c (Proc.devRef .tc main_arg3) = (m ((c.tc : Thread nD τ).loc main_arg3)) :=
  (W9_of_ne m ρ c main_arg3 (by decide)).trans (arg38 m ρ c)
theorem arg49 (c : Dev nD) : W9 m ρ c (Proc.devRef .tc main_arg4) = (m ((c.tc : Thread nD τ).loc main_arg4)) :=
  (W9_of_ne m ρ c main_arg4 (by decide)).trans (arg48 m ρ c)
theorem arg59 (c : Dev nD) : W9 m ρ c (Proc.devRef .tc main_arg5) = (m ((c.tc : Thread nD τ).loc main_arg5)) :=
  (W9_of_ne m ρ c main_arg5 (by decide)).trans (arg58 m ρ c)

/-! ## Region 2's entry: the messages summed per target node, and the bias as a row -/

set_option maxHeartbeats 4000000 in
theorem agg10 (c : Dev nD)
    (h : extractStridedSlice S3300000x16 ![0, 0] (W9 m ρ c (Proc.devRef .tc main_v43)) slices_S3301376x16_S3300000x16_0_0 = Cert.ReferenceIdeal.ReadP.val_main_v42 (F := F) (m ((c.tc : Thread nD τ).loc main_arg0)) (m ((c.tc : Thread nD τ).loc main_arg1)) (m ((c.tc : Thread nD τ).loc main_arg2))) :
    W10 m ρ c (Proc.devRef .tc main_v47) = Cert.ReferenceIdeal.ReadP.val_main_v45 (F := F) (m ((c.tc : Thread nD τ).loc main_arg0)) (m ((c.tc : Thread nD τ).loc main_arg1)) (m ((c.tc : Thread nD τ).loc main_arg2)) := by
  show StableHlo.after hostOps2 (W9 m ρ c) (Proc.devRef .tc main_v47) = _
  simp only [hostOps2]
  after_results_simp
  rw [h, dst9 m ρ c]
  rfl
set_option maxHeartbeats 4000000 in
theorem bias10 (c : Dev nD) : W10 m ρ c (Proc.devRef .tc main_v48) = shapeCast S1x16 (m ((c.tc : Thread nD τ).loc main_arg3)) shapeCasts_S16_S1x16 := by
  show StableHlo.after hostOps2 (W9 m ρ c) (Proc.devRef .tc main_v48) = _
  simp only [hostOps2]
  after_results_simp
  rw [arg39 m ρ c]
  rfl
theorem src10 (c : Dev nD) : W10 m ρ c (Proc.devRef .tc main_v3) = Cert.ReferenceIdeal.ReadP.val_main_v3 (F := F) (m ((c.tc : Thread nD τ).loc main_arg1)) := by
  refine Eq.trans ?_ (src9 m ρ c)
  show StableHlo.after hostOps2 (W9 m ρ c) (Proc.devRef .tc main_v3) = _
  simp only [hostOps2]
  after_results_simp
theorem dst10 (c : Dev nD) : W10 m ρ c (Proc.devRef .tc main_v6) = Cert.ReferenceIdeal.ReadP.val_main_v6 (F := F) (m ((c.tc : Thread nD τ).loc main_arg1)) := by
  refine Eq.trans ?_ (dst9 m ρ c)
  show StableHlo.after hostOps2 (W9 m ρ c) (Proc.devRef .tc main_v6) = _
  simp only [hostOps2]
  after_results_simp
theorem norm10 (c : Dev nD) : W10 m ρ c (Proc.devRef .tc main_v32) = Cert.ReferenceIdeal.ReadP.val_main_v33 (F := F) (m ((c.tc : Thread nD τ).loc main_arg1)) := by
  refine Eq.trans ?_ (norm9 m ρ c)
  show StableHlo.after hostOps2 (W9 m ρ c) (Proc.devRef .tc main_v32) = _
  simp only [hostOps2]
  after_results_simp
theorem arg410 (c : Dev nD) : W10 m ρ c (Proc.devRef .tc main_arg4) = (m ((c.tc : Thread nD τ).loc main_arg4)) := by
  refine Eq.trans ?_ (arg49 m ρ c)
  show StableHlo.after hostOps2 (W9 m ρ c) (Proc.devRef .tc main_arg4) = _
  simp only [hostOps2]
  after_results_simp
theorem arg510 (c : Dev nD) : W10 m ρ c (Proc.devRef .tc main_arg5) = (m ((c.tc : Thread nD τ).loc main_arg5)) := by
  refine Eq.trans ?_ (arg59 m ρ c)
  show StableHlo.after hostOps2 (W9 m ρ c) (Proc.devRef .tc main_arg5) = _
  simp only [hostOps2]
  after_results_simp

/-! ## Regions 2 and 3 follow each other with no host operation between -/
theorem src11 (c : Dev nD) : W11 m ρ c (Proc.devRef .tc main_v3) = Cert.ReferenceIdeal.ReadP.val_main_v3 (F := F) (m ((c.tc : Thread nD τ).loc main_arg1)) :=
  (W11_of_ne m ρ c main_v3 (by decide)).trans (src10 m ρ c)
theorem dst11 (c : Dev nD) : W11 m ρ c (Proc.devRef .tc main_v6) = Cert.ReferenceIdeal.ReadP.val_main_v6 (F := F) (m ((c.tc : Thread nD τ).loc main_arg1)) :=
  (W11_of_ne m ρ c main_v6 (by decide)).trans (dst10 m ρ c)
theorem norm11 (c : Dev nD) : W11 m ρ c (Proc.devRef .tc main_v32) = Cert.ReferenceIdeal.ReadP.val_main_v33 (F := F) (m ((c.tc : Thread nD τ).loc main_arg1)) :=
  (W11_of_ne m ρ c main_v32 (by decide)).trans (norm10 m ρ c)
theorem arg411 (c : Dev nD) : W11 m ρ c (Proc.devRef .tc main_arg4) = (m ((c.tc : Thread nD τ).loc main_arg4)) :=
  (W11_of_ne m ρ c main_arg4 (by decide)).trans (arg410 m ρ c)
theorem arg511 (c : Dev nD) : W11 m ρ c (Proc.devRef .tc main_arg5) = (m ((c.tc : Thread nD τ).loc main_arg5)) :=
  (W11_of_ne m ρ c main_arg5 (by decide)).trans (arg510 m ρ c)
theorem src12 (c : Dev nD) : W12 m ρ c (Proc.devRef .tc main_v3) = Cert.ReferenceIdeal.ReadP.val_main_v3 (F := F) (m ((c.tc : Thread nD τ).loc main_arg1)) :=
  (W12_of_ne m ρ c main_v3 (by decide)).trans (src11 m ρ c)
theorem dst12 (c : Dev nD) : W12 m ρ c (Proc.devRef .tc main_v6) = Cert.ReferenceIdeal.ReadP.val_main_v6 (F := F) (m ((c.tc : Thread nD τ).loc main_arg1)) :=
  (W12_of_ne m ρ c main_v6 (by decide)).trans (dst11 m ρ c)
theorem norm12 (c : Dev nD) : W12 m ρ c (Proc.devRef .tc main_v32) = Cert.ReferenceIdeal.ReadP.val_main_v33 (F := F) (m ((c.tc : Thread nD τ).loc main_arg1)) :=
  (W12_of_ne m ρ c main_v32 (by decide)).trans (norm11 m ρ c)
theorem arg512 (c : Dev nD) : W12 m ρ c (Proc.devRef .tc main_arg5) = (m ((c.tc : Thread nD τ).loc main_arg5)) :=
  (W12_of_ne m ρ c main_arg5 (by decide)).trans (arg511 m ρ c)

/-! ## Region 4's entry: the second layer's gathered rows and the same normalisation column, padded -/

set_option maxHeartbeats 4000000 in
theorem gath16 (c : Dev nD) (h50 : W12 m ρ c (Proc.devRef .tc main_v50) = Cert.ReferenceIdeal.ReadP.val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W16 m ρ c (Proc.devRef .tc main_v58) = pad S3301376x2 ![0, 0] ![1376, 0] ![0, 0] (Cert.ReferenceIdeal.ReadP.val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (sitofp (F := F) .f32 (constantI S_ 32 0#32)) pads_S3300000x2_S3301376x2_013760_000 h_S_ := by
  show StableHlo.after hostOps4_3 (StableHlo.after hostOps4_2 (StableHlo.after hostOps4_1 (StableHlo.after hostOps4 (W12 m ρ c)))) (Proc.devRef .tc main_v58) = _
  simp only [hostOps4, hostOps4_1, hostOps4_2, hostOps4_3]
  after_results_simp
  simp only [TRef.ofBuf, TRef.toBuf, cast_eq]
  rw [h50, src12 m ρ c]
  rfl
set_option maxHeartbeats 8000000 in
theorem npad16 (c : Dev nD) :
    W16 m ρ c (Proc.devRef .tc main_v59) = pad S3301376x1 ![0, 0] ![1376, 0] ![0, 0] (Cert.ReferenceIdeal.ReadP.val_main_v76 (F := F) (m ((c.tc : Thread nD τ).loc main_arg1)))
      (sitofp (F := F) .f32 (constantI S_ 32 0#32)) pads_S3300000x1_S3301376x1_013760_000 h_S_ := by
  show StableHlo.after hostOps4_3 (StableHlo.after hostOps4_2 (StableHlo.after hostOps4_1 (StableHlo.after hostOps4 (W12 m ρ c)))) (Proc.devRef .tc main_v59) = _
  simp only [hostOps4, hostOps4_1, hostOps4_2, hostOps4_3]
  after_results_simp
  simp only [TRef.ofBuf, TRef.toBuf, cast_eq]
  rw [norm12 m ρ c]
  rfl
theorem dst16 (c : Dev nD) : W16 m ρ c (Proc.devRef .tc main_v6) = Cert.ReferenceIdeal.ReadP.val_main_v6 (F := F) (m ((c.tc : Thread nD τ).loc main_arg1)) := by
  refine Eq.trans ?_ (dst12 m ρ c)
  show StableHlo.after hostOps4_3 (StableHlo.after hostOps4_2 (StableHlo.after hostOps4_1 (StableHlo.after hostOps4 (W12 m ρ c)))) (Proc.devRef .tc main_v6) = _
  simp only [hostOps4, hostOps4_1, hostOps4_2, hostOps4_3]
  after_results_simp
theorem arg516 (c : Dev nD) : W16 m ρ c (Proc.devRef .tc main_arg5) = (m ((c.tc : Thread nD τ).loc main_arg5)) := by
  refine Eq.trans ?_ (arg512 m ρ c)
  show StableHlo.after hostOps4_3 (StableHlo.after hostOps4_2 (StableHlo.after hostOps4_1 (StableHlo.after hostOps4 (W12 m ρ c)))) (Proc.devRef .tc main_arg5) = _
  simp only [hostOps4, hostOps4_1, hostOps4_2, hostOps4_3]
  after_results_simp
theorem dst17 (c : Dev nD) : W17 m ρ c (Proc.devRef .tc main_v6) = Cert.ReferenceIdeal.ReadP.val_main_v6 (F := F) (m ((c.tc : Thread nD τ).loc main_arg1)) :=
  (W17_of_ne m ρ c main_v6 (by decide)).trans (dst16 m ρ c)
theorem arg517 (c : Dev nD) : W17 m ρ c (Proc.devRef .tc main_arg5) = (m ((c.tc : Thread nD τ).loc main_arg5)) :=
  (W17_of_ne m ρ c main_arg5 (by decide)).trans (arg516 m ρ c)

/-! ## Region 5's entry -/

set_option maxHeartbeats 4000000 in
theorem agg18 (c : Dev nD)
    (h : extractStridedSlice S3300000x2 ![0, 0] (W17 m ρ c (Proc.devRef .tc main_v60)) slices_S3301376x2_S3300000x2_0_0 = Cert.ReferenceIdeal.ReadP.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W18 m ρ c (Proc.devRef .tc main_v64) = Cert.ReferenceIdeal.ReadP.val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps5 (W17 m ρ c) (Proc.devRef .tc main_v64) = _
  simp only [hostOps5]
  after_results_simp
  rw [h, dst17 m ρ c]
  rfl
set_option maxHeartbeats 4000000 in
theorem bias18 (c : Dev nD) : W18 m ρ c (Proc.devRef .tc main_v65) = shapeCast S1x2 (m ((c.tc : Thread nD τ).loc main_arg5)) shapeCasts_S2_S1x2 := by
  show StableHlo.after hostOps5 (W17 m ρ c) (Proc.devRef .tc main_v65) = _
  simp only [hostOps5]
  after_results_simp
  rw [arg517 m ρ c]
  rfl

end Cert.KernelIdeal.HostChain

end
-- ==== Proof.DenseIn.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«156685_j47605417509108_1_alg».proof.Proof.Gen.ReferenceIdeal
set_option maxRecDepth 16384

noncomputable section

namespace Cert.KernelIdeal.DenseIn

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product of a node-feature matrix with a weight matrix, entry by entry: the sum over the contracted axis. -/
def prod (x : FVec Ideal S100000x1 .f32) (w : FVec Ideal S1x16 .f32) : FVec Ideal S100000x16 .f32 :=
  fun i => ∑ k : Fin 1, x (ix2 ⟨(i 0).val, (i 0).isLt⟩ ⟨k.val, k.isLt⟩) * w (ix2 ⟨k.val, k.isLt⟩ ⟨(i 1).val, (i 1).isLt⟩)

/-! ## The kernel's product, read at an index -/

theorem lhs_blk_0 (i : S5000x16.Idx) (q : dot_S5000x1_S1x16_S5000x16_1_0_0_1_n_n.contr.Idx) :
    (dot_S5000x1_S1x16_S5000x16_1_0_0_1_n_n.lhsIdx i q 0).val = (i 0).val := by
  unfold DotDims.lhsIdx
  rw [dif_neg (show ¬(0 : Fin S5000x1.rank) ∈ dot_S5000x1_S1x16_S5000x16_1_0_0_1_n_n.lhsBatch by decide), dif_pos (show (0 : Fin S5000x1.rank) ∈ dot_S5000x1_S1x16_S5000x16_1_0_0_1_n_n.lhsNonContracting by decide)]
  rfl
theorem lhs_blk_1 (i : S5000x16.Idx) (q : dot_S5000x1_S1x16_S5000x16_1_0_0_1_n_n.contr.Idx) :
    (dot_S5000x1_S1x16_S5000x16_1_0_0_1_n_n.lhsIdx i q 1).val = (q ⟨0, by decide⟩).val :=
  dot_S5000x1_S1x16_S5000x16_1_0_0_1_n_n.lhsIdx_val_of_single rfl i q
theorem rhs_blk_0 (i : S5000x16.Idx) (q : dot_S5000x1_S1x16_S5000x16_1_0_0_1_n_n.contr.Idx) :
    (dot_S5000x1_S1x16_S5000x16_1_0_0_1_n_n.rhsIdx i q 0).val = (q ⟨0, by decide⟩).val :=
  dot_S5000x1_S1x16_S5000x16_1_0_0_1_n_n.rhsIdx_val_of_single rfl i q
theorem rhs_blk_1 (i : S5000x16.Idx) (q : dot_S5000x1_S1x16_S5000x16_1_0_0_1_n_n.contr.Idx) :
    (dot_S5000x1_S1x16_S5000x16_1_0_0_1_n_n.rhsIdx i q 1).val = (i 1).val := by
  unfold DotDims.rhsIdx
  rw [dif_neg (show ¬(1 : Fin S1x16.rank) ∈ dot_S5000x1_S1x16_S5000x16_1_0_0_1_n_n.rhsBatch by decide), dif_pos (show (1 : Fin S1x16.rank) ∈ dot_S5000x1_S1x16_S5000x16_1_0_0_1_n_n.rhsNonContracting by decide)]
  rfl

/-- One entry of a block's product: row `j 0` of the left block against column `j 1` of the right one. -/
theorem pay_at (x0 : FVec Ideal S5000x1 .f32) (x1 : FVec Ideal S1x16 .f32) (j : S5000x16.Idx) :
    k0_pay1 (F := Ideal) x0 x1 j
      = ∑ k : Fin 1, x0 (ix2 ⟨(j 0).val, (j 0).isLt⟩ ⟨k.val, k.isLt⟩) * x1 (ix2 ⟨k.val, k.isLt⟩ ⟨(j 1).val, (j 1).isLt⟩) := by
  unfold k0_pay1
  simp only [matmul]
  rw [Ideal.matmul_constant_zero_apply, ← Equiv.sum_comp (contrEquiv1 dot_S5000x1_S1x16_S5000x16_1_0_0_1_n_n 1 rfl rfl).symm]
  refine Finset.sum_congr rfl fun k _ => ?_
  have hk := contrEquiv1_symm_val dot_S5000x1_S1x16_S5000x16_1_0_0_1_n_n 1 rfl rfl k
  have el : dot_S5000x1_S1x16_S5000x16_1_0_0_1_n_n.lhsIdx j ((contrEquiv1 dot_S5000x1_S1x16_S5000x16_1_0_0_1_n_n 1 rfl rfl).symm k)
      = ix2 ⟨(j 0).val, (j 0).isLt⟩ ⟨k.val, k.isLt⟩ := funext fun a => Fin.ext (by
    match a with
    | ⟨0, _⟩ => exact lhs_blk_0 _ _
    | ⟨1, _⟩ => exact (lhs_blk_1 _ _).trans hk)
  have er : dot_S5000x1_S1x16_S5000x16_1_0_0_1_n_n.rhsIdx j ((contrEquiv1 dot_S5000x1_S1x16_S5000x16_1_0_0_1_n_n 1 rfl rfl).symm k)
      = ix2 ⟨k.val, k.isLt⟩ ⟨(j 1).val, (j 1).isLt⟩ := funext fun a => Fin.ext (by
    match a with
    | ⟨0, _⟩ => exact (rhs_blk_0 _ _).trans hk
    | ⟨1, _⟩ => exact rhs_blk_1 _ _)
  show (truncf .bf16 x0 bitsLt_bf16_f32) _ * (truncf .bf16 x1 bitsLt_bf16_f32) _ = _
  rw [el, er]
  rfl

/-! ## From the blocks to the array -/

theorem hz : (![0, 0] : Fin 2 → Nat) = fun _ => 0 := funext fun a => by fin_cases a <;> rfl

/-- One entry of a block's product is the entry of the whole product at the array index it lands on, once each
    block's row or column is the whole array's row or column there. -/
theorem blk_entry (a0 : FVec Ideal S100000x1 .f32) (a1 : FVec Ideal S1x16 .f32)
    (x0 : FVec Ideal S5000x1 .f32) (x1 : FVec Ideal S1x16 .f32) (j : S5000x16.Idx) (i : S100000x16.Idx)
    (h0 : ∀ k : Fin 1, x0 (ix2 ⟨(j 0).val, (j 0).isLt⟩ ⟨k.val, k.isLt⟩) = a0 (ix2 ⟨(i 0).val, (i 0).isLt⟩ ⟨k.val, k.isLt⟩))
    (h1 : ∀ k : Fin 1, x1 (ix2 ⟨k.val, k.isLt⟩ ⟨(j 1).val, (j 1).isLt⟩) = a1 (ix2 ⟨k.val, k.isLt⟩ ⟨(i 1).val, (i 1).isLt⟩)) :
    k0_pay1 (F := Ideal) x0 x1 j = prod a0 a1 i := by
  rw [pay_at]
  unfold prod
  exact Finset.sum_congr rfl fun k _ => by rw [h0 k, h1 k]

/-- The printed index maps over the grid: the row blocks of the left operand move with the output's, everything else
    stays at block 0, and the output's row block stays among the twenty. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the two arrays as the region finds them. -/
theorem flushed_eq (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x1) hz, View.ld_unit_zero (S := S1x16) hz]
  obtain ⟨e0, e1, e2, e3, e4, e5⟩ := idx_facts t
  funext j
  refine blk_entry (V c main_arg0) (V c main_arg2) (iblk0 V c 0 t) (iblk0 V c 1 t) j (((cfg0.win 2).blk t).view.emb j) (fun k => ?_) (fun k => ?_)
  · show V c main_arg0 (((cfg0.win 0).blk t).view.emb (ix2 ⟨(j 0).val, (j 0).isLt⟩ ⟨k.val, k.isLt⟩)) = V c main_arg0 _
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * k.val = k.val; omega
  · show V c main_arg2 (((cfg0.win 1).blk t).view.emb (ix2 ⟨k.val, k.isLt⟩ ⟨(j 1).val, (j 1).isLt⟩)) = V c main_arg2 _
    congr 1
    funext a; apply Fin.ext
    match a with
    | ⟨0, _⟩ => show win0_1.index t (0 : Fin 2) * 1 + 1 * k.val = k.val; omega
    | ⟨1, _⟩ => show win0_1.index t (1 : Fin 2) * 16 + 1 * (j 1).val = win0_2.index t (1 : Fin 2) * 16 + 1 * (j 1).val; omega

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v33).slice (win0_2.rect t)).set ↔ _
  rw [View.set_slice_whole, Rect.mem_set_unit]
  exact Iff.rfl

/-- The twenty blocks of 5000 rows tile the 100000 rows: row `r` is in block `r / 5000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

theorem final (c : Dev nD) : (dat0 (F := Ideal) V c).arrAt 2 cfg0.N = prod (V c main_arg0) (V c main_arg2) :=
  (dat0 V c).arrAt_eq_of_cover 2 (prod (V c main_arg0) (V c main_arg2)) (fun t _ => flushed_eq V c t) cover

/-! ## The host's product of the whole arrays, read at an index -/

theorem lhs_arr_0 (i : S100000x16.Idx) (q : Cert.ReferenceIdeal.dot_S100000x1_S1x16_S100000x16_1_0_0_1_n_n.contr.Idx) :
    (Cert.ReferenceIdeal.dot_S100000x1_S1x16_S100000x16_1_0_0_1_n_n.lhsIdx i q 0).val = (i 0).val := by
  unfold DotDims.lhsIdx
  rw [dif_neg (show ¬(0 : Fin S100000x1.rank) ∈ Cert.ReferenceIdeal.dot_S100000x1_S1x16_S100000x16_1_0_0_1_n_n.lhsBatch by decide), dif_pos (show (0 : Fin S100000x1.rank) ∈ Cert.ReferenceIdeal.dot_S100000x1_S1x16_S100000x16_1_0_0_1_n_n.lhsNonContracting by decide)]
  rfl
theorem lhs_arr_1 (i : S100000x16.Idx) (q : Cert.ReferenceIdeal.dot_S100000x1_S1x16_S100000x16_1_0_0_1_n_n.contr.Idx) :
    (Cert.ReferenceIdeal.dot_S100000x1_S1x16_S100000x16_1_0_0_1_n_n.lhsIdx i q 1).val = (q ⟨0, by decide⟩).val :=
  Cert.ReferenceIdeal.dot_S100000x1_S1x16_S100000x16_1_0_0_1_n_n.lhsIdx_val_of_single rfl i q
theorem rhs_arr_0 (i : S100000x16.Idx) (q : Cert.ReferenceIdeal.dot_S100000x1_S1x16_S100000x16_1_0_0_1_n_n.contr.Idx) :
    (Cert.ReferenceIdeal.dot_S100000x1_S1x16_S100000x16_1_0_0_1_n_n.rhsIdx i q 0).val = (q ⟨0, by decide⟩).val :=
  Cert.ReferenceIdeal.dot_S100000x1_S1x16_S100000x16_1_0_0_1_n_n.rhsIdx_val_of_single rfl i q
theorem rhs_arr_1 (i : S100000x16.Idx) (q : Cert.ReferenceIdeal.dot_S100000x1_S1x16_S100000x16_1_0_0_1_n_n.contr.Idx) :
    (Cert.ReferenceIdeal.dot_S100000x1_S1x16_S100000x16_1_0_0_1_n_n.rhsIdx i q 1).val = (i 1).val := by
  unfold DotDims.rhsIdx
  rw [dif_neg (show ¬(1 : Fin S1x16.rank) ∈ Cert.ReferenceIdeal.dot_S100000x1_S1x16_S100000x16_1_0_0_1_n_n.rhsBatch by decide), dif_pos (show (1 : Fin S1x16.rank) ∈ Cert.ReferenceIdeal.dot_S100000x1_S1x16_S100000x16_1_0_0_1_n_n.rhsNonContracting by decide)]
  rfl

theorem prod_eq_dot (x : FVec Ideal S100000x1 .f32) (w : FVec Ideal S1x16 .f32) :
    prod x w = Host.dotGeneral (F := Ideal) (φ₁ := .f32) (φ₂ := .f32) Cert.ReferenceIdeal.dot_S100000x1_S1x16_S100000x16_1_0_0_1_n_n none x w := by
  funext i
  simp only [Host.dotGeneral]
  rw [Ideal.dotGeneral_apply, ← Equiv.sum_comp (contrEquiv1 Cert.ReferenceIdeal.dot_S100000x1_S1x16_S100000x16_1_0_0_1_n_n 1 rfl rfl).symm]
  unfold prod
  refine Finset.sum_congr rfl fun k _ => ?_
  have hk := contrEquiv1_symm_val Cert.ReferenceIdeal.dot_S100000x1_S1x16_S100000x16_1_0_0_1_n_n 1 rfl rfl k
  have el : Cert.ReferenceIdeal.dot_S100000x1_S1x16_S100000x16_1_0_0_1_n_n.lhsIdx i ((contrEquiv1 Cert.ReferenceIdeal.dot_S100000x1_S1x16_S100000x16_1_0_0_1_n_n 1 rfl rfl).symm k)
      = ix2 ⟨(i 0).val, (i 0).isLt⟩ ⟨k.val, k.isLt⟩ := funext fun a => Fin.ext (by
    match a with
    | ⟨0, _⟩ => exact lhs_arr_0 _ _
    | ⟨1, _⟩ => exact (lhs_arr_1 _ _).trans hk)
  have er : Cert.ReferenceIdeal.dot_S100000x1_S1x16_S100000x16_1_0_0_1_n_n.rhsIdx i ((contrEquiv1 Cert.ReferenceIdeal.dot_S100000x1_S1x16_S100000x16_1_0_0_1_n_n 1 rfl rfl).symm k)
      = ix2 ⟨k.val, k.isLt⟩ ⟨(i 1).val, (i 1).isLt⟩ := funext fun a => Fin.ext (by
    match a with
    | ⟨0, _⟩ => exact (rhs_arr_0 _ _).trans hk
    | ⟨1, _⟩ => exact rhs_arr_1 _ _)
  rw [el, er]
  rfl

end Cert.KernelIdeal.DenseIn

end
-- ==== Proof.DenseOut.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«156685_j47605417509108_1_alg».proof.Proof.Gen.ReferenceIdeal
set_option maxRecDepth 16384

noncomputable section

namespace Cert.KernelIdeal.DenseOut

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product of a node-feature matrix with a weight matrix, entry by entry: the sum over the contracted axis. -/
def prod (x : FVec Ideal S100000x16 .f32) (w : FVec Ideal S16x2 .f32) : FVec Ideal S100000x2 .f32 :=
  fun i => ∑ k : Fin 16, x (ix2 ⟨(i 0).val, (i 0).isLt⟩ ⟨k.val, k.isLt⟩) * w (ix2 ⟨k.val, k.isLt⟩ ⟨(i 1).val, (i 1).isLt⟩)

/-! ## The kernel's product, read at an index -/

theorem lhs_blk_0 (i : S5000x2.Idx) (q : dot_S5000x16_S16x2_S5000x2_1_0_0_1_n_n.contr.Idx) :
    (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
theorem lhs_blk_1 (i : S5000x2.Idx) (q : dot_S5000x16_S16x2_S5000x2_1_0_0_1_n_n.contr.Idx) :
    (dot_S5000x16_S16x2_S5000x2_1_0_0_1_n_n.lhsIdx i q 1).val = (q ⟨0, by decide⟩).val :=
  dot_S5000x16_S16x2_S5000x2_1_0_0_1_n_n.lhsIdx_val_of_single rfl i q
theorem rhs_blk_0 (i : S5000x2.Idx) (q : dot_S5000x16_S16x2_S5000x2_1_0_0_1_n_n.contr.Idx) :
    (dot_S5000x16_S16x2_S5000x2_1_0_0_1_n_n.rhsIdx i q 0).val = (q ⟨0, by decide⟩).val :=
  dot_S5000x16_S16x2_S5000x2_1_0_0_1_n_n.rhsIdx_val_of_single rfl i q
theorem rhs_blk_1 (i : S5000x2.Idx) (q : dot_S5000x16_S16x2_S5000x2_1_0_0_1_n_n.contr.Idx) :
    (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- One entry of a block's product: row `j 0` of the left block against column `j 1` of the right one, over the
    sixteen contracted positions (the left block passes through a reshape to its own shape first, which changes nothing). -/
theorem pay_at (x0 : FVec Ideal S5000x16 .f32) (x1 : FVec Ideal S16x2 .f32) (j : S5000x2.Idx) :
    k3_pay1 (F := Ideal) x0 x1 j
      = ∑ k : Fin 16, x0 (ix2 ⟨(j 0).val, (j 0).isLt⟩ ⟨k.val, k.isLt⟩) * x1 (ix2 ⟨k.val, k.isLt⟩ ⟨(j 1).val, (j 1).isLt⟩) := by
  unfold k3_pay1
  simp only [matmul, shapeCast_self]
  rw [Ideal.matmul_constant_zero_apply, ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx j ((contrEquiv1 dot_S5000x16_S16x2_S5000x2_1_0_0_1_n_n 16 rfl rfl).symm k)
      = ix2 ⟨(j 0).val, (j 0).isLt⟩ ⟨k.val, k.isLt⟩ := funext fun a => Fin.ext (by
    match a with
    | ⟨0, _⟩ => exact lhs_blk_0 _ _
    | ⟨1, _⟩ => exact (lhs_blk_1 _ _).trans hk)
  have er : dot_S5000x16_S16x2_S5000x2_1_0_0_1_n_n.rhsIdx j ((contrEquiv1 dot_S5000x16_S16x2_S5000x2_1_0_0_1_n_n 16 rfl rfl).symm k)
      = ix2 ⟨k.val, k.isLt⟩ ⟨(j 1).val, (j 1).isLt⟩ := funext fun a => Fin.ext (by
    match a with
    | ⟨0, _⟩ => exact (rhs_blk_0 _ _).trans hk
    | ⟨1, _⟩ => exact rhs_blk_1 _ _)
  show (truncf .bf16 x0 bitsLt_bf16_f32) _ * (truncf .bf16 x1 bitsLt_bf16_f32) _ = _
  rw [el, er]
  rfl

/-! ## From the blocks to the array -/

theorem hz : (![0, 0] : Fin 2 → Nat) = fun _ => 0 := funext fun a => by fin_cases a <;> rfl

/-- One entry of a block's product is the entry of the whole product at the array index it lands on, once each
    block's row or column is the whole array's row or column there. -/
theorem blk_entry (a0 : FVec Ideal S100000x16 .f32) (a1 : FVec Ideal S16x2 .f32)
    (x0 : FVec Ideal S5000x16 .f32) (x1 : FVec Ideal S16x2 .f32) (j : S5000x2.Idx) (i : S100000x2.Idx)
    (h0 : ∀ k : Fin 16, x0 (ix2 ⟨(j 0).val, (j 0).isLt⟩ ⟨k.val, k.isLt⟩) = a0 (ix2 ⟨(i 0).val, (i 0).isLt⟩ ⟨k.val, k.isLt⟩))
    (h1 : ∀ k : Fin 16, x1 (ix2 ⟨k.val, k.isLt⟩ ⟨(j 1).val, (j 1).isLt⟩) = a1 (ix2 ⟨k.val, k.isLt⟩ ⟨(i 1).val, (i 1).isLt⟩)) :
    k3_pay1 (F := Ideal) x0 x1 j = prod a0 a1 i := by
  rw [pay_at]
  unfold prod
  exact Finset.sum_congr rfl fun k _ => by rw [h0 k, h1 k]

/-- The printed index maps over the grid: the row blocks of the left operand move with the output's, everything else
    stays at block 0, and the output's row block stays among the twenty. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the twenty row blocks is some point's. -/
theorem idx_onto : ∀ q : Fin 20, ∃ t : Fin cfg3.N, win3_2.index t = ![q.val, 0] :=
  (by decide +kernel : ∀ q : Fin 20, ∃ t : Fin grid3.N, win3_2.index t = ![q.val, 0])

/-- What point `t` writes back is block `t` of the product of the two arrays as the region finds them. -/
theorem flushed_eq (c : Dev nD) (t : Fin cfg3.N) :
    (dat3 (F := Ideal) V c).flushed 2 t = ((cfg3.win 2).blk t).view.read (Elt Ideal) (prod (V c main_v49) (V c main_arg4)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x2) hz]
  obtain ⟨e0, e1, e2, e3, e4, e5⟩ := idx_facts t
  funext j
  refine blk_entry (V c main_v49) (V c main_arg4) (iblk3 V c 0 t) (iblk3 V c 1 t) j (((cfg3.win 2).blk t).view.emb j) (fun k => ?_) (fun k => ?_)
  · show V c main_v49 (((cfg3.win 0).blk t).view.emb (ix2 ⟨(j 0).val, (j 0).isLt⟩ ⟨k.val, k.isLt⟩)) = V c main_v49 _
    congr 1
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * k.val = k.val; omega
  · show V c main_arg4 (((cfg3.win 1).blk t).view.emb (ix2 ⟨k.val, k.isLt⟩ ⟨(j 1).val, (j 1).isLt⟩)) = V c main_arg4 _
    congr 1
    funext a; apply Fin.ext
    match a with
    | ⟨0, _⟩ => show win3_1.index t (0 : Fin 2) * 16 + 1 * k.val = k.val; omega
    | ⟨1, _⟩ => show win3_1.index t (1 : Fin 2) * 2 + 1 * (j 1).val = win3_2.index t (1 : Fin 2) * 2 + 1 * (j 1).val; omega

/-- An index of the array is in point `t`'s block iff each coordinate is in the block's range on its axis. -/
theorem mem_blk (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v50).slice (win3_2.rect t)).set ↔ _
  rw [View.set_slice_whole, Rect.mem_set_unit]
  exact Iff.rfl

/-- The twenty blocks of 5000 rows tile the 100000 rows: row `r` is in block `r / 5000`. -/
theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 2 ≤ (i 1).val ∧ (i 1).val < win3_2.index t (1 : Fin 2) * 2 + 2; omega

theorem final (c : Dev nD) : (dat3 (F := Ideal) V c).arrAt 2 cfg3.N = prod (V c main_v49) (V c main_arg4) :=
  (dat3 V c).arrAt_eq_of_cover 2 (prod (V c main_v49) (V c main_arg4)) (fun t _ => flushed_eq V c t) cover

/-! ## The host's product of the whole arrays, read at an index -/

theorem lhs_arr_0 (i : S100000x2.Idx) (q : Cert.ReferenceIdeal.dot_S100000x16_S16x2_S100000x2_1_0_0_1_n_n.contr.Idx) :
    (Cert.ReferenceIdeal.dot_S100000x16_S16x2_S100000x2_1_0_0_1_n_n.lhsIdx i q 0).val = (i 0).val := by
  unfold DotDims.lhsIdx
  rw [dif_neg (show ¬(0 : Fin S100000x16.rank) ∈ Cert.ReferenceIdeal.dot_S100000x16_S16x2_S100000x2_1_0_0_1_n_n.lhsBatch by decide), dif_pos (show (0 : Fin S100000x16.rank) ∈ Cert.ReferenceIdeal.dot_S100000x16_S16x2_S100000x2_1_0_0_1_n_n.lhsNonContracting by decide)]
  rfl
theorem lhs_arr_1 (i : S100000x2.Idx) (q : Cert.ReferenceIdeal.dot_S100000x16_S16x2_S100000x2_1_0_0_1_n_n.contr.Idx) :
    (Cert.ReferenceIdeal.dot_S100000x16_S16x2_S100000x2_1_0_0_1_n_n.lhsIdx i q 1).val = (q ⟨0, by decide⟩).val :=
  Cert.ReferenceIdeal.dot_S100000x16_S16x2_S100000x2_1_0_0_1_n_n.lhsIdx_val_of_single rfl i q
theorem rhs_arr_0 (i : S100000x2.Idx) (q : Cert.ReferenceIdeal.dot_S100000x16_S16x2_S100000x2_1_0_0_1_n_n.contr.Idx) :
    (Cert.ReferenceIdeal.dot_S100000x16_S16x2_S100000x2_1_0_0_1_n_n.rhsIdx i q 0).val = (q ⟨0, by decide⟩).val :=
  Cert.ReferenceIdeal.dot_S100000x16_S16x2_S100000x2_1_0_0_1_n_n.rhsIdx_val_of_single rfl i q
theorem rhs_arr_1 (i : S100000x2.Idx) (q : Cert.ReferenceIdeal.dot_S100000x16_S16x2_S100000x2_1_0_0_1_n_n.contr.Idx) :
    (Cert.ReferenceIdeal.dot_S100000x16_S16x2_S100000x2_1_0_0_1_n_n.rhsIdx i q 1).val = (i 1).val := by
  unfold DotDims.rhsIdx
  rw [dif_neg (show ¬(1 : Fin S16x2.rank) ∈ Cert.ReferenceIdeal.dot_S100000x16_S16x2_S100000x2_1_0_0_1_n_n.rhsBatch by decide), dif_pos (show (1 : Fin S16x2.rank) ∈ Cert.ReferenceIdeal.dot_S100000x16_S16x2_S100000x2_1_0_0_1_n_n.rhsNonContracting by decide)]
  rfl

theorem prod_eq_dot (x : FVec Ideal S100000x16 .f32) (w : FVec Ideal S16x2 .f32) :
    prod x w = Host.dotGeneral (F := Ideal) (φ₁ := .f32) (φ₂ := .f32) Cert.ReferenceIdeal.dot_S100000x16_S16x2_S100000x2_1_0_0_1_n_n none x w := by
  funext i
  simp only [Host.dotGeneral]
  rw [Ideal.dotGeneral_apply, ← Equiv.sum_comp (contrEquiv1 Cert.ReferenceIdeal.dot_S100000x16_S16x2_S100000x2_1_0_0_1_n_n 16 rfl rfl).symm]
  unfold prod
  refine Finset.sum_congr rfl fun k _ => ?_
  have hk := contrEquiv1_symm_val Cert.ReferenceIdeal.dot_S100000x16_S16x2_S100000x2_1_0_0_1_n_n 16 rfl rfl k
  have el : Cert.ReferenceIdeal.dot_S100000x16_S16x2_S100000x2_1_0_0_1_n_n.lhsIdx i ((contrEquiv1 Cert.ReferenceIdeal.dot_S100000x16_S16x2_S100000x2_1_0_0_1_n_n 16 rfl rfl).symm k)
      = ix2 ⟨(i 0).val, (i 0).isLt⟩ ⟨k.val, k.isLt⟩ := funext fun a => Fin.ext (by
    match a with
    | ⟨0, _⟩ => exact lhs_arr_0 _ _
    | ⟨1, _⟩ => exact (lhs_arr_1 _ _).trans hk)
  have er : Cert.ReferenceIdeal.dot_S100000x16_S16x2_S100000x2_1_0_0_1_n_n.rhsIdx i ((contrEquiv1 Cert.ReferenceIdeal.dot_S100000x16_S16x2_S100000x2_1_0_0_1_n_n 16 rfl rfl).symm k)
      = ix2 ⟨k.val, k.isLt⟩ ⟨(i 1).val, (i 1).isLt⟩ := funext fun a => Fin.ext (by
    match a with
    | ⟨0, _⟩ => exact (rhs_arr_0 _ _).trans hk
    | ⟨1, _⟩ => exact rhs_arr_1 _ _)
  rw [el, er]
  rfl

end Cert.KernelIdeal.DenseOut

end
-- ==== Proof.ScaleIn.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.ScaleIn

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Every row of the padded message matrix times that row's normalisation coefficient. -/
def scaled (a : FVec Ideal S3301376x16 .f32) (n : FVec Ideal S3301376x1 .f32) : FVec Ideal S3301376x16 .f32 :=
  fun i => a i * n (ix2 ⟨(i 0).val, (i 0).isLt⟩ ⟨0, Nat.one_pos⟩)

/-- The two zero offsets of a whole-buffer access are the constant zero function. -/
theorem zero_offsets : (![0, 0] : Fin 2 → Nat) = fun _ => 0 :=
  funext fun a => by match a with | ⟨0, _⟩ => rfl | ⟨1, _⟩ => rfl

/-- One entry of what the body stores: the message entry times the coefficient of its row. -/
theorem stored_entry (x0 : FVec Ideal S8192x16 .f32) (x1 : FVec Ideal S8192x1 .f32) (j : S8192x16.Idx) :
    k1_pay1 (F := Ideal) x0 x1 j = x0 j * x1 (ix2 ⟨(j 0).val, (j 0).isLt⟩ ⟨0, Nat.one_pos⟩) := by
  obtain ⟨p, q, rfl⟩ : ∃ (p : Fin 8192) (q : Fin 16), j = ix2 p q := ⟨j 0, j 1, eq_ix2 j⟩
  unfold k1_pay1
  dsimp only
  rw [mulf_apply, shapeCast_self, shapeCast_self]
  congr 1
  refine broadcastTo_apply _ _ _ _ fun a => ?_
  match a with
  | ⟨0, _⟩ => rfl
  | ⟨1, _⟩ => rfl

/-- The three index maps over the grid: block t of each window starts at row block t, column block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An entry of a stored block is an entry of the scaled matrix as soon as the block's message entry and the
    block's coefficient of that row are the matrix's and the column's at the matching row. -/
theorem stored_entry_eq_scaled (a : FVec Ideal S3301376x16 .f32) (n : FVec Ideal S3301376x1 .f32)
    (x0 : FVec Ideal S8192x16 .f32) (x1 : FVec Ideal S8192x1 .f32) (y : S8192x16.Idx) (i : S3301376x16.Idx)
    (h0 : x0 y = a i)
    (h1 : x1 (ix2 ⟨(y 0).val, (y 0).isLt⟩ ⟨0, Nat.one_pos⟩) = n (ix2 ⟨(i 0).val, (i 0).isLt⟩ ⟨0, Nat.one_pos⟩)) :
    k1_pay1 (F := Ideal) x0 x1 y = scaled a n i := by
  rw [stored_entry, h0, h1]
  rfl

/-- What a grid point writes back is its block of the scaled matrix: the point's two input blocks start at
    the same row as its output block, so entry by entry the stored product is the scaled matrix's entry. -/
theorem flushed_eq (c : Dev nD) (t : Fin cfg1.N) :
    (dat1 (F := Ideal) V c).flushed 2 t
      = ((cfg1.win 2).blk t).view.read (Elt Ideal) (scaled (V c main_v41) (V c main_v42)) := by
  show (cfg1.win 2).cut (grid1.coords t) ((dat1 V c).after 2 t) = _
  rw [after1_2]
  unfold out1_2
  rw [View.canon_unit_zero zero_offsets]
  simp only [View.ld_unit_zero (S := S8192x16) zero_offsets, View.ld_unit_zero (S := S8192x1) zero_offsets]
  obtain ⟨e00, e01, e10, e11, e20, e21⟩ := index_facts t
  funext j
  refine stored_entry_eq_scaled (V c main_v41) (V c main_v42) _ _ _ (((cfg1.win 2).blk t).view.emb j) ?_ ?_
  · show V c main_v41 (((cfg1.win 0).blk t).view.emb _) = V c main_v41 _
    refine congrArg _ (funext fun a => Fin.ext ?_)
    match a with
    | ⟨0, _⟩ =>
      show win1_0.index t (0 : Fin 2) * 8192 + 1 * (j 0).val = win1_2.index t (0 : Fin 2) * 8192 + 1 * (j 0).val
      rw [e00, e20]
    | ⟨1, _⟩ =>
      show win1_0.index t (1 : Fin 2) * 16 + 1 * (j 1).val = win1_2.index t (1 : Fin 2) * 16 + 1 * (j 1).val
      rw [e01, e21]
  · show V c main_v42 (((cfg1.win 1).blk t).view.emb _) = V c main_v42 _
    refine congrArg _ (funext fun a => Fin.ext ?_)
    match a with
    | ⟨0, _⟩ =>
      show win1_1.index t (0 : Fin 2) * 8192 + 1 * (j 0).val = win1_2.index t (0 : Fin 2) * 8192 + 1 * (j 0).val
      rw [e10, e20]
    | ⟨1, _⟩ =>
      show win1_1.index t (1 : Fin 2) * 1 + 1 * 0 = 0
      rw [e11]

/-- An index of the output array lies in a grid point's block exactly when, on each axis, its coordinate is
    in the block's range there. -/
theorem mem_blk (t : Fin cfg1.N) (i : S3301376x16.Idx) :
    i ∈ ((cfg1.win 2).blk t).view.set
      ↔ ∀ a : Fin 2, win1_2.index t a * S8192x16.size a ≤ (i a).val
          ∧ (i a).val < win1_2.index t a * S8192x16.size a + S8192x16.size a := by
  show i ∈ ((View.whole main_v43).slice (win1_2.rect t)).set ↔ _
  rw [View.set_slice_whole, Rect.mem_set_unit]
  exact Iff.rfl

/-- The 403 blocks of 8192 rows tile the 3301376 rows exactly: row r lies in the block of point r / 8192. -/
theorem cover (i : S3301376x16.Idx) :
    ∃ t : Fin cfg1.N, (cfg1.win 2).flush t = true ∧ i ∈ ((cfg1.win 2).blk t).view.set := by
  have hi0 : (i 0).val < 3301376 := (i 0).isLt
  have hi1 : (i 1).val < 16 := (i 1).isLt
  have hN : cfg1.N = 403 := N_1
  obtain ⟨t, ht⟩ : ∃ t : Fin cfg1.N, t.val = (i 0).val / 8192 := ⟨⟨(i 0).val / 8192, by rw [hN]; omega⟩, rfl⟩
  obtain ⟨-, -, -, -, e20, e21⟩ := index_facts t
  refine ⟨t, flush1_2 t, ?_⟩
  rw [mem_blk]
  intro a
  match a with
  | ⟨0, _⟩ =>
    show win1_2.index t (0 : Fin 2) * 8192 ≤ (i 0).val ∧ (i 0).val < win1_2.index t (0 : Fin 2) * 8192 + 8192
    rw [e20, ht]
    omega
  | ⟨1, _⟩ =>
    show win1_2.index t (1 : Fin 2) * 16 ≤ (i 1).val ∧ (i 1).val < win1_2.index t (1 : Fin 2) * 16 + 16
    rw [e21]
    omega

/-- After the last grid point the output array is the scaled matrix: every point wrote its block of it, and
    the blocks fill the array. -/
theorem final (c : Dev nD) : (dat1 (F := Ideal) V c).arrAt 2 cfg1.N = scaled (V c main_v41) (V c main_v42) :=
  (dat1 V c).arrAt_eq_of_cover 2 (scaled (V c main_v41) (V c main_v42)) (fun t _ => flushed_eq V c t) cover

/-- Padding both operands with rows of a constant, scaling, and cutting the padding rows off again is the
    product of the coefficient column, spread along the rows, with the unpadded matrix. -/
theorem msg_eq (a : FVec Ideal S3300000x16 .f32) (n : FVec Ideal S3300000x1 .f32) (z z' : FVec Ideal S_ .f32)
    (hb : S3300000x1.BroadcastsInDim S3300000x16 (![0, 1] : Fin 2 → Fin S3300000x16.rank)) :
    extractStridedSlice S3300000x16 ![0, 0]
        (scaled (pad S3301376x16 ![0, 0] ![1376, 0] ![0, 0] a z pads_S3300000x16_S3301376x16_013760_000 h_S_)
          (pad S3301376x1 ![0, 0] ![1376, 0] ![0, 0] n z' pads_S3300000x1_S3301376x1_013760_000 h_S_))
        slices_S3301376x16_S3300000x16_0_0
      = mulf (F := Ideal) (φ := .f32) (broadcastInDim S3300000x16 ![0, 1] hb n) a := by
  funext j
  obtain ⟨p, q, rfl⟩ : ∃ (p : Fin 3300000) (q : Fin 16), j = ix2 p q := ⟨j 0, j 1, eq_ix2 j⟩
  have hp : p.val < 3301376 := by have := p.isLt; omega
  -- a row of the result is the same row of the padded arrays, which lies below the padding
  refine (extractStridedSlice_apply _ _ _ (ix2 p q) (ix2 ⟨p.val, hp⟩ q) fun b => ?_).trans ?_
  · match b with
    | ⟨0, _⟩ => show p.val = 0 + p.val; omega
    | ⟨1, _⟩ => show q.val = 0 + q.val; omega
  rw [mulf_apply]
  show pad S3301376x16 ![0, 0] ![1376, 0] ![0, 0] a z pads_S3300000x16_S3301376x16_013760_000 h_S_ (ix2 ⟨p.val, hp⟩ q)
      * pad S3301376x1 ![0, 0] ![1376, 0] ![0, 0] n z' pads_S3300000x1_S3301376x1_013760_000 h_S_ (ix2 ⟨p.val, hp⟩ ⟨0, Nat.one_pos⟩)
    = _
  rw [pad_apply_of_inside _ _ _ a z _ h_S_ (ix2 ⟨p.val, hp⟩ q) (ix2 p q) (fun b => by
        match b with
        | ⟨0, _⟩ => show p.val = 0 + p.val * (0 + 1); omega
        | ⟨1, _⟩ => show q.val = 0 + q.val * (0 + 1); omega),
    pad_apply_of_inside _ _ _ n z' _ h_S_ (ix2 ⟨p.val, hp⟩ ⟨0, Nat.one_pos⟩) (ix2 p ⟨0, Nat.one_pos⟩) (fun b => by
        match b with
        | ⟨0, _⟩ => show p.val = 0 + p.val * (0 + 1); omega
        | ⟨1, _⟩ => show 0 = 0 + 0 * (0 + 1); omega),
    broadcastInDim_apply _ hb n (ix2 p q) (ix2 p ⟨0, Nat.one_pos⟩) (fun b => by
        match b with
        | ⟨0, _⟩ => rfl
        | ⟨1, _⟩ => rfl)]
  exact mul_comm _ _

end Cert.KernelIdeal.ScaleIn

end
-- ==== Proof.ScaleOut.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.ScaleOut

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Every row of the padded message matrix times that row's normalisation coefficient. -/
def scaled (a : FVec Ideal S3301376x2 .f32) (n : FVec Ideal S3301376x1 .f32) : FVec Ideal S3301376x2 .f32 :=
  fun i => a i * n (ix2 ⟨(i 0).val, (i 0).isLt⟩ ⟨0, Nat.one_pos⟩)

/-- The two zero offsets of a whole-buffer access are the constant zero function. -/
theorem zero_offsets : (![0, 0] : Fin 2 → Nat) = fun _ => 0 :=
  funext fun a => by match a with | ⟨0, _⟩ => rfl | ⟨1, _⟩ => rfl

/-- One entry of what the body stores: the message entry times the coefficient of its row. -/
theorem stored_entry (x0 : FVec Ideal S8192x2 .f32) (x1 : FVec Ideal S8192x1 .f32) (j : S8192x2.Idx) :
    k4_pay1 (F := Ideal) x0 x1 j = x0 j * x1 (ix2 ⟨(j 0).val, (j 0).isLt⟩ ⟨0, Nat.one_pos⟩) := by
  obtain ⟨p, q, rfl⟩ : ∃ (p : Fin 8192) (q : Fin 2), j = ix2 p q := ⟨j 0, j 1, eq_ix2 j⟩
  unfold k4_pay1
  dsimp only
  rw [mulf_apply, shapeCast_self, shapeCast_self]
  congr 1
  refine broadcastTo_apply _ _ _ _ fun a => ?_
  match a with
  | ⟨0, _⟩ => rfl
  | ⟨1, _⟩ => rfl

/-- The three index maps over the grid: block t of each window starts at row block t, column block 0. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- An entry of a stored block is an entry of the scaled matrix as soon as the block's message entry and the
    block's coefficient of that row are the matrix's and the column's at the matching row. -/
theorem stored_entry_eq_scaled (a : FVec Ideal S3301376x2 .f32) (n : FVec Ideal S3301376x1 .f32)
    (x0 : FVec Ideal S8192x2 .f32) (x1 : FVec Ideal S8192x1 .f32) (y : S8192x2.Idx) (i : S3301376x2.Idx)
    (h0 : x0 y = a i)
    (h1 : x1 (ix2 ⟨(y 0).val, (y 0).isLt⟩ ⟨0, Nat.one_pos⟩) = n (ix2 ⟨(i 0).val, (i 0).isLt⟩ ⟨0, Nat.one_pos⟩)) :
    k4_pay1 (F := Ideal) x0 x1 y = scaled a n i := by
  rw [stored_entry, h0, h1]
  rfl

/-- What a grid point writes back is its block of the scaled matrix: the point's two input blocks start at
    the same row as its output block, so entry by entry the stored product is the scaled matrix's entry. -/
theorem flushed_eq (c : Dev nD) (t : Fin cfg4.N) :
    (dat4 (F := Ideal) V c).flushed 2 t
      = ((cfg4.win 2).blk t).view.read (Elt Ideal) (scaled (V c main_v58) (V c main_v59)) := by
  show (cfg4.win 2).cut (grid4.coords t) ((dat4 V c).after 2 t) = _
  rw [after4_2]
  unfold out4_2
  rw [View.canon_unit_zero zero_offsets]
  simp only [View.ld_unit_zero (S := S8192x2) zero_offsets, View.ld_unit_zero (S := S8192x1) zero_offsets]
  obtain ⟨e00, e01, e10, e11, e20, e21⟩ := index_facts t
  funext j
  refine stored_entry_eq_scaled (V c main_v58) (V c main_v59) _ _ _ (((cfg4.win 2).blk t).view.emb j) ?_ ?_
  · show V c main_v58 (((cfg4.win 0).blk t).view.emb _) = V c main_v58 _
    refine congrArg _ (funext fun a => Fin.ext ?_)
    match a with
    | ⟨0, _⟩ =>
      show win4_0.index t (0 : Fin 2) * 8192 + 1 * (j 0).val = win4_2.index t (0 : Fin 2) * 8192 + 1 * (j 0).val
      rw [e00, e20]
    | ⟨1, _⟩ =>
      show win4_0.index t (1 : Fin 2) * 2 + 1 * (j 1).val = win4_2.index t (1 : Fin 2) * 2 + 1 * (j 1).val
      rw [e01, e21]
  · show V c main_v59 (((cfg4.win 1).blk t).view.emb _) = V c main_v59 _
    refine congrArg _ (funext fun a => Fin.ext ?_)
    match a with
    | ⟨0, _⟩ =>
      show win4_1.index t (0 : Fin 2) * 8192 + 1 * (j 0).val = win4_2.index t (0 : Fin 2) * 8192 + 1 * (j 0).val
      rw [e10, e20]
    | ⟨1, _⟩ =>
      show win4_1.index t (1 : Fin 2) * 1 + 1 * 0 = 0
      rw [e11]

/-- An index of the output array lies in a grid point's block exactly when, on each axis, its coordinate is
    in the block's range there. -/
theorem mem_blk (t : Fin cfg4.N) (i : S3301376x2.Idx) :
    i ∈ ((cfg4.win 2).blk t).view.set
      ↔ ∀ a : Fin 2, win4_2.index t a * S8192x2.size a ≤ (i a).val
          ∧ (i a).val < win4_2.index t a * S8192x2.size a + S8192x2.size a := by
  show i ∈ ((View.whole main_v60).slice (win4_2.rect t)).set ↔ _
  rw [View.set_slice_whole, Rect.mem_set_unit]
  exact Iff.rfl

/-- The 403 blocks of 8192 rows tile the 3301376 rows exactly: row r lies in the block of point r / 8192. -/
theorem cover (i : S3301376x2.Idx) :
    ∃ t : Fin cfg4.N, (cfg4.win 2).flush t = true ∧ i ∈ ((cfg4.win 2).blk t).view.set := by
  have hi0 : (i 0).val < 3301376 := (i 0).isLt
  have hi1 : (i 1).val < 2 := (i 1).isLt
  have hN : cfg4.N = 403 := N_4
  obtain ⟨t, ht⟩ : ∃ t : Fin cfg4.N, t.val = (i 0).val / 8192 := ⟨⟨(i 0).val / 8192, by rw [hN]; omega⟩, rfl⟩
  obtain ⟨-, -, -, -, e20, e21⟩ := index_facts t
  refine ⟨t, flush4_2 t, ?_⟩
  rw [mem_blk]
  intro a
  match a with
  | ⟨0, _⟩ =>
    show win4_2.index t (0 : Fin 2) * 8192 ≤ (i 0).val ∧ (i 0).val < win4_2.index t (0 : Fin 2) * 8192 + 8192
    rw [e20, ht]
    omega
  | ⟨1, _⟩ =>
    show win4_2.index t (1 : Fin 2) * 2 ≤ (i 1).val ∧ (i 1).val < win4_2.index t (1 : Fin 2) * 2 + 2
    rw [e21]
    omega

/-- After the last grid point the output array is the scaled matrix: every point wrote its block of it, and
    the blocks fill the array. -/
theorem final (c : Dev nD) : (dat4 (F := Ideal) V c).arrAt 2 cfg4.N = scaled (V c main_v58) (V c main_v59) :=
  (dat4 V c).arrAt_eq_of_cover 2 (scaled (V c main_v58) (V c main_v59)) (fun t _ => flushed_eq V c t) cover

/-- Padding both operands with rows of a constant, scaling, and cutting the padding rows off again is the
    product of the coefficient column, spread along the rows, with the unpadded matrix. -/
theorem msg_eq (a : FVec Ideal S3300000x2 .f32) (n : FVec Ideal S3300000x1 .f32) (z z' : FVec Ideal S_ .f32)
    (hb : S3300000x1.BroadcastsInDim S3300000x2 (![0, 1] : Fin 2 → Fin S3300000x2.rank)) :
    extractStridedSlice S3300000x2 ![0, 0]
        (scaled (pad S3301376x2 ![0, 0] ![1376, 0] ![0, 0] a z pads_S3300000x2_S3301376x2_013760_000 h_S_)
          (pad S3301376x1 ![0, 0] ![1376, 0] ![0, 0] n z' pads_S3300000x1_S3301376x1_013760_000 h_S_))
        slices_S3301376x2_S3300000x2_0_0
      = mulf (F := Ideal) (φ := .f32) (broadcastInDim S3300000x2 ![0, 1] hb n) a := by
  funext j
  obtain ⟨p, q, rfl⟩ : ∃ (p : Fin 3300000) (q : Fin 2), j = ix2 p q := ⟨j 0, j 1, eq_ix2 j⟩
  have hp : p.val < 3301376 := by have := p.isLt; omega
  -- a row of the result is the same row of the padded arrays, which lies below the padding
  refine (extractStridedSlice_apply _ _ _ (ix2 p q) (ix2 ⟨p.val, hp⟩ q) fun b => ?_).trans ?_
  · match b with
    | ⟨0, _⟩ => show p.val = 0 + p.val; omega
    | ⟨1, _⟩ => show q.val = 0 + q.val; omega
  rw [mulf_apply]
  show pad S3301376x2 ![0, 0] ![1376, 0] ![0, 0] a z pads_S3300000x2_S3301376x2_013760_000 h_S_ (ix2 ⟨p.val, hp⟩ q)
      * pad S3301376x1 ![0, 0] ![1376, 0] ![0, 0] n z' pads_S3300000x1_S3301376x1_013760_000 h_S_ (ix2 ⟨p.val, hp⟩ ⟨0, Nat.one_pos⟩)
    = _
  rw [pad_apply_of_inside _ _ _ a z _ h_S_ (ix2 ⟨p.val, hp⟩ q) (ix2 p q) (fun b => by
        match b with
        | ⟨0, _⟩ => show p.val = 0 + p.val * (0 + 1); omega
        | ⟨1, _⟩ => show q.val = 0 + q.val * (0 + 1); omega),
    pad_apply_of_inside _ _ _ n z' _ h_S_ (ix2 ⟨p.val, hp⟩ ⟨0, Nat.one_pos⟩) (ix2 p ⟨0, Nat.one_pos⟩) (fun b => by
        match b with
        | ⟨0, _⟩ => show p.val = 0 + p.val * (0 + 1); omega
        | ⟨1, _⟩ => show 0 = 0 + 0 * (0 + 1); omega),
    broadcastInDim_apply _ hb n (ix2 p q) (ix2 p ⟨0, Nat.one_pos⟩) (fun b => by
        match b with
        | ⟨0, _⟩ => rfl
        | ⟨1, _⟩ => rfl)]
  exact mul_comm _ _

end Cert.KernelIdeal.ScaleOut

end
-- ==== Proof.BiasRelu.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The aggregated features plus the bias row, clamped below at zero. -/
def act (g : FVec Ideal S100000x16 .f32) (b : FVec Ideal S1x16 .f32) : FVec Ideal S100000x16 .f32 :=
  fun i => FloatOps.maximumf (F := Ideal) (φ := .f32) (FloatOps.addf (F := Ideal) (φ := .f32) (g i) (b (ix2 ⟨0, Nat.one_pos⟩ ⟨(i 1).val, (i 1).isLt⟩)))
    (FloatOps.ofBits (F := Ideal) .f32 0x00000000#32)

/-! ## One block: the body's value entry by entry -/

/-- Both offsets of the whole-buffer rectangle are zero. -/
theorem zero_offsets : (![0, 0] : Fin 2 → Nat) = fun _ => 0 :=
  funext fun a => match a with | ⟨0, _⟩ => rfl | ⟨1, _⟩ => rfl

/-- The body's value at row `p`, column `q` of a block: the feature entry there plus the bias row's entry of
    column `q`, clamped below at zero. The two same-shape casts are identities and the row broadcast reads row 0. -/
theorem payload_apply (x0 : Vec Ideal S5000x16 .f32) (x1 : Vec Ideal S1x16 .f32) (p : Fin 5000) (q : Fin 16) :
    k2_pay1 (F := Ideal) x0 x1 (ix2 p q)
      = FloatOps.maximumf (F := Ideal) (φ := .f32)
          (FloatOps.addf (F := Ideal) (φ := .f32) (x0 (ix2 p q)) (x1 (ix2 (0 : Fin 1) q)))
          (FloatOps.ofBits (F := Ideal) .f32 0x00000000#32) := by
  unfold k2_pay1
  show FloatOps.maximumf (F := Ideal) (φ := .f32)
      (FloatOps.addf (F := Ideal) (φ := .f32) (shapeCast S5000x16 x0 shapeCasts_S5000x16_S5000x16 (ix2 p q))
        (broadcastTo S5000x16 (shapeCast S1x16 x1 shapeCasts_S1x16_S1x16) broadcasts_S1x16_S5000x16 (ix2 p q)))
      (FloatOps.ofBits (F := Ideal) .f32 0x00000000#32) = _
  rw [shapeCast_self, shapeCast_self, broadcastTo_1b_ab_apply]

/-- A block entry of the body's value is the whole-array function `act` at an array index `i`, as soon as the
    feature block's entry is the feature array's at `i`, the bias block is the bias row, and `i` lies in the
    entry's column. -/
theorem block_entry (g : FVec Ideal S100000x16 .f32) (b : FVec Ideal S1x16 .f32)
    (x0 : Vec Ideal S5000x16 .f32) (x1 : Vec Ideal S1x16 .f32) (p : Fin 5000) (q : Fin 16) (i : S100000x16.Idx)
    (hfeat : x0 (ix2 p q) = g i) (hbias : x1 (ix2 (0 : Fin 1) q) = b (ix2 (0 : Fin 1) q)) (hcol : (i 1).val = q.val) :
    k2_pay1 (F := Ideal) x0 x1 (ix2 p q) = act g b i := by
  rw [payload_apply, hfeat, hbias]
  unfold act
  have hq : (⟨(i 1).val, (i 1).isLt⟩ : Fin 16) = q := Fin.ext hcol
  rw [hq]
  rfl

/-! ## From blocks to the array -/

/-- The printed index maps over the twenty grid points: at point `t` the feature window and the output window both sit
    at block row `t`, block column 0, and the bias window always at its one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `act` of the two input arrays as the region finds them. -/
theorem flushed_eq (c : Dev nD) (t : Fin cfg2.N) :
    (dat2 (F := Ideal) V c).flushed 2 t
      = ((cfg2.win 2).blk t).view.read (Elt Ideal) (act (V c main_v47) (V c main_v48)) := by
  show (cfg2.win 2).cut (grid2.coords t) ((dat2 (F := Ideal) V c).after 2 t) = _
  rw [after2_2]
  unfold out2_2
  rw [View.canon_unit_zero zero_offsets]
  simp only [View.ld_unit_zero (S := S5000x16) zero_offsets, View.ld_unit_zero (S := S1x16) zero_offsets]
  obtain ⟨e0, e1, e2, e3, e4, e5⟩ := index_facts t
  funext j
  obtain ⟨p, q, rfl⟩ : ∃ (p : Fin 5000) (q : Fin 16), j = ix2 p q := ⟨j 0, j 1, eq_ix2 j⟩
  show k2_pay1 (F := Ideal) (iblk2 V c 0 t) (iblk2 V c 1 t) (ix2 p q)
    = act (V c main_v47) (V c main_v48) (((cfg2.win 2).blk t).view.emb (ix2 p q))
  refine block_entry _ _ _ _ p q _ ?_ ?_ ?_
  · -- the feature block's entry sits where the output block's entry sits
    show V c main_v47 (((cfg2.win 0).blk t).view.emb (ix2 p q)) = V c main_v47 (((cfg2.win 2).blk t).view.emb (ix2 p q))
    refine congrArg _ (funext fun a => Fin.ext ?_)
    match a with
    | ⟨0, _⟩ => show win2_0.index t (0 : Fin 2) * 5000 + 1 * p.val = win2_2.index t (0 : Fin 2) * 5000 + 1 * p.val; rw [e0, e4]
    | ⟨1, _⟩ => show win2_0.index t (1 : Fin 2) * 16 + 1 * q.val = win2_2.index t (1 : Fin 2) * 16 + 1 * q.val; rw [e1, e5]
  · -- the bias block is the whole bias row
    show V c main_v48 (((cfg2.win 1).blk t).view.emb (ix2 (0 : Fin 1) q)) = V c main_v48 (ix2 (0 : Fin 1) q)
    refine congrArg _ (funext fun a => Fin.ext ?_)
    match a with
    | ⟨0, _⟩ => show win2_1.index t (0 : Fin 2) * 1 + 1 * 0 = 0; rw [e2]
    | ⟨1, _⟩ => show win2_1.index t (1 : Fin 2) * 16 + 1 * q.val = q.val; rw [e3]; omega
  · -- the output block spans all sixteen columns from column 0
    show win2_2.index t (1 : Fin 2) * 16 + 1 * q.val = q.val
    rw [e5]; omega

/-- An index of the array is in point `t`'s output block iff each coordinate is in the block's range on its axis. -/
theorem mem_block (t : Fin cfg2.N) (i : S100000x16.Idx) :
    i ∈ ((cfg2.win 2).blk t).view.set
      ↔ ∀ a : Fin 2, win2_2.index t a * S5000x16.size a ≤ (i a).val ∧ (i a).val < win2_2.index t a * S5000x16.size a + S5000x16.size a := by
  show i ∈ ((View.whole main_v49).slice (win2_2.rect t)).set ↔ _
  rw [View.set_slice_whole, Rect.mem_set_unit]
  exact Iff.rfl

/-- The twenty blocks of 5000 rows tile the 100000 rows: row `r` is in the block of point `r / 5000`. -/
theorem cover (i : S100000x16.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 16 := (i 1).isLt
  have ht : (i 0).val / 5000 < cfg2.N := by show _ < grid2.N; rw [hN]; omega
  obtain ⟨-, -, -, -, e4, e5⟩ := index_facts ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val
      ∧ (i 1).val < win2_2.index ⟨(i 0).val / 5000, ht⟩ (1 : Fin 2) * 16 + 16
    rw [e5]; omega

theorem final (c : Dev nD) : (dat2 (F := Ideal) V c).arrAt 2 cfg2.N = act (V c main_v47) (V c main_v48) :=
  (dat2 (F := Ideal) V c).arrAt_eq_of_cover 2 (act (V c main_v47) (V c main_v48)) (fun t _ => flushed_eq V c t) cover

/-! ## The host's spelling of the same function -/

/-- On the host the bias vector is reshaped to one row and that row is broadcast down the rows, and the zero is a
    scalar broadcast everywhere: entry by entry that is `act` of the features and the reshaped bias. -/
theorem act_eq (g : FVec Ideal S100000x16 .f32) (b : FVec Ideal S16 .f32)
    (h1 : S16.BroadcastsInDim S1x16 (![1] : Fin 1 → Fin S1x16.rank))
    (h2 : S1x16.BroadcastsInDim S100000x16 (![0, 1] : Fin 2 → Fin S100000x16.rank))
    (h0 : S_.BroadcastsInDim S100000x16 (![] : Fin 0 → Fin S100000x16.rank)) :
    act g (shapeCast S1x16 b shapeCasts_S16_S1x16)
      = maximumf (F := Ideal) (φ := .f32) (addf (F := Ideal) (φ := .f32) g (broadcastInDim S100000x16 ![0, 1] h2 (broadcastInDim S1x16 ![1] h1 b)))
          (broadcastInDim S100000x16 ![] h0 (constant (F := Ideal) S_ .f32 0x00000000#32)) := by
  funext i
  obtain ⟨r, q, rfl⟩ : ∃ (r : Fin 100000) (q : Fin 16), i = ix2 r q := ⟨i 0, i 1, eq_ix2 i⟩
  -- the reshaped bias at (0, q) is the bias at q
  have hb : shapeCast S1x16 b shapeCasts_S16_S1x16 (ix2 (⟨0, Nat.one_pos⟩ : Fin 1) (⟨q.val, q.isLt⟩ : Fin 16)) = b (ix1 q) :=
    shapeCast_a_1a_apply b shapeCasts_S16_S1x16 _ q
  -- the twice-broadcast bias at (r, q) is the bias at q
  have hrow : broadcastInDim S100000x16 ![0, 1] h2 (broadcastInDim S1x16 ![1] h1 b) (ix2 r q) = b (ix1 q) :=
    (broadcastInDim_apply ![0, 1] h2 _ (ix2 r q) (ix2 (0 : Fin 1) q) (fun a => match a with | ⟨0, _⟩ => rfl | ⟨1, _⟩ => rfl)).trans
      (broadcastInDim_apply ![1] h1 b (ix2 (0 : Fin 1) q) (ix1 q) (fun a => match a with | ⟨0, _⟩ => rfl))
  -- the broadcast scalar is its one word everywhere
  have hzero : broadcastInDim S100000x16 ![] h0 (constant (F := Ideal) S_ .f32 0x00000000#32) (ix2 r q)
      = FloatOps.ofBits (F := Ideal) .f32 0x00000000#32 :=
    broadcastInDim_apply ![] h0 _ (ix2 r q) ix0 (fun a => a.elim0)
  show FloatOps.maximumf (F := Ideal) (φ := .f32)
      (FloatOps.addf (F := Ideal) (φ := .f32) (g (ix2 r q))
        (shapeCast S1x16 b shapeCasts_S16_S1x16 (ix2 (⟨0, Nat.one_pos⟩ : Fin 1) (⟨q.val, q.isLt⟩ : Fin 16))))
      (FloatOps.ofBits (F := Ideal) .f32 0x00000000#32)
    = FloatOps.maximumf (F := Ideal) (φ := .f32)
      (FloatOps.addf (F := Ideal) (φ := .f32) (g (ix2 r q))
        (broadcastInDim S100000x16 ![0, 1] h2 (broadcastInDim S1x16 ![1] h1 b) (ix2 r q)))
      (broadcastInDim S100000x16 ![] h0 (constant (F := Ideal) S_ .f32 0x00000000#32) (ix2 r q))
  rw [hb, hrow, hzero]

end Cert.KernelIdeal.BiasRelu

end
-- ==== Proof.BiasOut.lean ====
import proofs.«156685_j47605417509108_1_alg».proof.Proof.Gen.KernelIdeal.Frame
import proofs.«156685_j47605417509108_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.BiasOut

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The aggregated output features plus the bias row. -/
def shifted (g : FVec Ideal S100000x2 .f32) (b : FVec Ideal S1x2 .f32) : FVec Ideal S100000x2 .f32 :=
  fun i => FloatOps.addf (F := Ideal) (φ := .f32) (g i) (b (ix2 ⟨0, Nat.one_pos⟩ ⟨(i 1).val, (i 1).isLt⟩))

/-! ## One block: the body's value entry by entry -/

/-- Both offsets of the whole-buffer rectangle are zero. -/
theorem zero_offsets : (![0, 0] : Fin 2 → Nat) = fun _ => 0 :=
  funext fun a => match a with | ⟨0, _⟩ => rfl | ⟨1, _⟩ => rfl

/-- The body's value at row `p`, column `q` of a block: the feature entry there plus the bias row's entry of
    column `q`. The two same-shape casts are identities and the row broadcast reads row 0. -/
theorem payload_apply (x0 : Vec Ideal S5000x2 .f32) (x1 : Vec Ideal S1x2 .f32) (p : Fin 5000) (q : Fin 2) :
    k5_pay1 (F := Ideal) x0 x1 (ix2 p q)
      = FloatOps.addf (F := Ideal) (φ := .f32) (x0 (ix2 p q)) (x1 (ix2 (0 : Fin 1) q)) := by
  unfold k5_pay1
  show FloatOps.addf (F := Ideal) (φ := .f32) (shapeCast S5000x2 x0 shapeCasts_S5000x2_S5000x2 (ix2 p q))
      (broadcastTo S5000x2 (shapeCast S1x2 x1 shapeCasts_S1x2_S1x2) broadcasts_S1x2_S5000x2 (ix2 p q)) = _
  rw [shapeCast_self, shapeCast_self, broadcastTo_1b_ab_apply]

/-- A block entry of the body's value is the whole-array function `shifted` at an array index `i`, as soon as the
    feature block's entry is the feature array's at `i`, the bias block is the bias row, and `i` lies in the
    entry's column. -/
theorem block_entry (g : FVec Ideal S100000x2 .f32) (b : FVec Ideal S1x2 .f32)
    (x0 : Vec Ideal S5000x2 .f32) (x1 : Vec Ideal S1x2 .f32) (p : Fin 5000) (q : Fin 2) (i : S100000x2.Idx)
    (hfeat : x0 (ix2 p q) = g i) (hbias : x1 (ix2 (0 : Fin 1) q) = b (ix2 (0 : Fin 1) q)) (hcol : (i 1).val = q.val) :
    k5_pay1 (F := Ideal) x0 x1 (ix2 p q) = shifted g b i := by
  rw [payload_apply, hfeat, hbias]
  unfold shifted
  have hq : (⟨(i 1).val, (i 1).isLt⟩ : Fin 2) = q := Fin.ext hcol
  rw [hq]
  rfl

/-! ## From blocks to the array -/

/-- The printed index maps over the twenty grid points: at point `t` the feature window and the output window both sit
    at block row `t`, block column 0, and the bias window always at its one block. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `shifted` of the two input arrays as the region finds them. -/
theorem flushed_eq (c : Dev nD) (t : Fin cfg5.N) :
    (dat5 (F := Ideal) V c).flushed 2 t
      = ((cfg5.win 2).blk t).view.read (Elt Ideal) (shifted (V c main_v64) (V c main_v65)) := by
  show (cfg5.win 2).cut (grid5.coords t) ((dat5 (F := Ideal) V c).after 2 t) = _
  rw [after5_2]
  unfold out5_2
  rw [View.canon_unit_zero zero_offsets]
  simp only [View.ld_unit_zero (S := S5000x2) zero_offsets, View.ld_unit_zero (S := S1x2) zero_offsets]
  obtain ⟨e0, e1, e2, e3, e4, e5⟩ := index_facts t
  funext j
  obtain ⟨p, q, rfl⟩ : ∃ (p : Fin 5000) (q : Fin 2), j = ix2 p q := ⟨j 0, j 1, eq_ix2 j⟩
  show k5_pay1 (F := Ideal) (iblk5 V c 0 t) (iblk5 V c 1 t) (ix2 p q)
    = shifted (V c main_v64) (V c main_v65) (((cfg5.win 2).blk t).view.emb (ix2 p q))
  refine block_entry _ _ _ _ p q _ ?_ ?_ ?_
  · -- the feature block's entry sits where the output block's entry sits
    show V c main_v64 (((cfg5.win 0).blk t).view.emb (ix2 p q)) = V c main_v64 (((cfg5.win 2).blk t).view.emb (ix2 p q))
    refine congrArg _ (funext fun a => Fin.ext ?_)
    match a with
    | ⟨0, _⟩ => show win5_0.index t (0 : Fin 2) * 5000 + 1 * p.val = win5_2.index t (0 : Fin 2) * 5000 + 1 * p.val; rw [e0, e4]
    | ⟨1, _⟩ => show win5_0.index t (1 : Fin 2) * 2 + 1 * q.val = win5_2.index t (1 : Fin 2) * 2 + 1 * q.val; rw [e1, e5]
  · -- the bias block is the whole bias row
    show V c main_v65 (((cfg5.win 1).blk t).view.emb (ix2 (0 : Fin 1) q)) = V c main_v65 (ix2 (0 : Fin 1) q)
    refine congrArg _ (funext fun a => Fin.ext ?_)
    match a with
    | ⟨0, _⟩ => show win5_1.index t (0 : Fin 2) * 1 + 1 * 0 = 0; rw [e2]
    | ⟨1, _⟩ => show win5_1.index t (1 : Fin 2) * 2 + 1 * q.val = q.val; rw [e3]; omega
  · -- the output block spans both columns from column 0
    show win5_2.index t (1 : Fin 2) * 2 + 1 * q.val = q.val
    rw [e5]; omega

/-- An index of the array is in point `t`'s output block iff each coordinate is in the block's range on its axis. -/
theorem mem_block (t : Fin cfg5.N) (i : S100000x2.Idx) :
    i ∈ ((cfg5.win 2).blk t).view.set
      ↔ ∀ a : Fin 2, win5_2.index t a * S5000x2.size a ≤ (i a).val ∧ (i a).val < win5_2.index t a * S5000x2.size a + S5000x2.size a := by
  show i ∈ ((View.whole main_v66).slice (win5_2.rect t)).set ↔ _
  rw [View.set_slice_whole, Rect.mem_set_unit]
  exact Iff.rfl

/-- The twenty blocks of 5000 rows tile the 100000 rows: row `r` is in the block of point `r / 5000`. -/
theorem cover (i : S100000x2.Idx) :
    ∃ t : Fin cfg5.N, (cfg5.win 2).flush t = true ∧ i ∈ ((cfg5.win 2).blk t).view.set := by
  have hN : grid5.N = 20 := N_5
  have hi0 : (i 0).val < 100000 := (i 0).isLt
  have hi1 : (i 1).val < 2 := (i 1).isLt
  have ht : (i 0).val / 5000 < cfg5.N := by show _ < grid5.N; rw [hN]; omega
  obtain ⟨-, -, -, -, e4, e5⟩ := index_facts ⟨(i 0).val / 5000, ht⟩
  refine ⟨⟨(i 0).val / 5000, ht⟩, flush5_2 _, ?_⟩
  rw [mem_block]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 2 ≤ (i 1).val
      ∧ (i 1).val < win5_2.index ⟨(i 0).val / 5000, ht⟩ (1 : Fin 2) * 2 + 2
    rw [e5]; omega

theorem final (c : Dev nD) : (dat5 (F := Ideal) V c).arrAt 2 cfg5.N = shifted (V c main_v64) (V c main_v65) :=
  (dat5 (F := Ideal) V c).arrAt_eq_of_cover 2 (shifted (V c main_v64) (V c main_v65)) (fun t _ => flushed_eq V c t) cover

/-! ## The host's spelling of the same function -/

/-- On the host the bias vector is reshaped to one row and that row is broadcast down the rows: entry by entry that
    is `shifted` of the features and the reshaped bias. -/
theorem shifted_eq (g : FVec Ideal S100000x2 .f32) (b : FVec Ideal S2 .f32)
    (h1 : S2.BroadcastsInDim S1x2 (![1] : Fin 1 → Fin S1x2.rank))
    (h2 : S1x2.BroadcastsInDim S100000x2 (![0, 1] : Fin 2 → Fin S100000x2.rank)) :
    shifted g (shapeCast S1x2 b shapeCasts_S2_S1x2)
      = addf (F := Ideal) (φ := .f32) g (broadcastInDim S100000x2 ![0, 1] h2 (broadcastInDim S1x2 ![1] h1 b)) := by
  funext i
  obtain ⟨r, q, rfl⟩ : ∃ (r : Fin 100000) (q : Fin 2), i = ix2 r q := ⟨i 0, i 1, eq_ix2 i⟩
  -- the reshaped bias at (0, q) is the bias at q
  have hb : shapeCast S1x2 b shapeCasts_S2_S1x2 (ix2 (⟨0, Nat.one_pos⟩ : Fin 1) (⟨q.val, q.isLt⟩ : Fin 2)) = b (ix1 q) :=
    shapeCast_a_1a_apply b shapeCasts_S2_S1x2 _ q
  -- the twice-broadcast bias at (r, q) is the bias at q
  have hrow : broadcastInDim S100000x2 ![0, 1] h2 (broadcastInDim S1x2 ![1] h1 b) (ix2 r q) = b (ix1 q) :=
    (broadcastInDim_apply ![0, 1] h2 _ (ix2 r q) (ix2 (0 : Fin 1) q) (fun a => match a with | ⟨0, _⟩ => rfl | ⟨1, _⟩ => rfl)).trans
      (broadcastInDim_apply ![1] h1 b (ix2 (0 : Fin 1) q) (ix1 q) (fun a => match a with | ⟨0, _⟩ => rfl))
  show FloatOps.addf (F := Ideal) (φ := .f32) (g (ix2 r q))
      (shapeCast S1x2 b shapeCasts_S2_S1x2 (ix2 (⟨0, Nat.one_pos⟩ : Fin 1) (⟨q.val, q.isLt⟩ : Fin 2)))
    = FloatOps.addf (F := Ideal) (φ := .f32) (g (ix2 r q))
      (broadcastInDim S100000x2 ![0, 1] h2 (broadcastInDim S1x2 ![1] h1 b) (ix2 r q))
  rw [hb, hrow]

end Cert.KernelIdeal.BiasOut

end
-- ==== Proof.Chain.lean ====
/-
  The kernel program's result array is the reference's result, at the ideal instance.
  Each region's output array is one function of its input arrays (the regions' closed forms); between the
  regions the host operations carry the values on (the host chain). Stage by stage the kernel's buffer holds
  the reference's stage: the dense transform x·W is the reference's dot product; padding the gathered rows and
  the normalisation column to whole blocks, scaling row by row and cutting the padding off again is the
  reference's product norm · h[src] (the product of extended reals commutes); the bias and the clamp are the
  reference's own; the second layer repeats the first at two channels.
-/
import proofs.«156685_j47605417509108_1_alg».proof.Proof.HostChain
import proofs.«156685_j47605417509108_1_alg».proof.Proof.DenseIn
import proofs.«156685_j47605417509108_1_alg».proof.Proof.DenseOut
import proofs.«156685_j47605417509108_1_alg».proof.Proof.ScaleIn
import proofs.«156685_j47605417509108_1_alg».proof.Proof.ScaleOut
import proofs.«156685_j47605417509108_1_alg».proof.Proof.BiasRelu
import proofs.«156685_j47605417509108_1_alg».proof.Proof.BiasOut

set_option maxRecDepth 16384

noncomputable section

namespace Cert.KernelIdeal.Chain

open Cert.KernelIdeal Cert.KernelIdeal.Gen Cert.KernelIdeal.HostChain
open Idealize.ShloMosaic Idealize.ShloMosaic.TcCoe Idealize.SL.Sem Idealize.ShloMosaic.StableHlo

variable (m : (ℓ : Loc nD τ sig) → Buf (Elt Ideal) ℓ) (ρ : Dev nD → PrngReg)

/-- After region 0 its output array holds the first dense transform x·W1. -/
theorem dense1 (c : Dev nD) : W4 m ρ c (Proc.devRef .tc main_v33) = Cert.ReferenceIdeal.ReadP.val_main_v32 (F := Ideal) (m ((c.tc : Thread nD τ).loc main_arg0)) (m ((c.tc : Thread nD τ).loc main_arg2)) :=
  (W4_arr m ρ c 2).trans ((DenseIn.final (V3 m ρ) c).trans (by
    show DenseIn.prod (W3 m ρ c (Proc.devRef .tc main_arg0)) (W3 m ρ c (Proc.devRef .tc main_arg2)) = _
    rw [arg0_3 m ρ c, arg2_3 m ρ c]
    exact DenseIn.prod_eq_dot _ _))

/-- After region 1, the rows below the padding are the first layer's messages norm · (x·W1)[src]. -/
theorem msg1 (c : Dev nD) :
    extractStridedSlice S3300000x16 ![0, 0] (W9 m ρ c (Proc.devRef .tc main_v43)) slices_S3301376x16_S3300000x16_0_0
      = Cert.ReferenceIdeal.ReadP.val_main_v42 (F := Ideal) (m ((c.tc : Thread nD τ).loc main_arg0)) (m ((c.tc : Thread nD τ).loc main_arg1)) (m ((c.tc : Thread nD τ).loc main_arg2)) := by
  rw [show W9 m ρ c (Proc.devRef .tc main_v43) = ScaleIn.scaled (W8 m ρ c (Proc.devRef .tc main_v41)) (W8 m ρ c (Proc.devRef .tc main_v42)) from
    (W9_arr m ρ c 2).trans (ScaleIn.final (V8 m ρ) c)]
  rw [gath8 m ρ c (dense1 m ρ c), npad8 m ρ c]
  exact ScaleIn.msg_eq _ _ _ _ Cert.ReferenceIdeal.Facts₀.bcast_S3300000x1_S3300000x16_0_1

/-- After region 2 its output array holds the first layer's activations. -/
theorem act1 (c : Dev nD) : W11 m ρ c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) :=
  (W11_arr m ρ c 2).trans ((BiasRelu.final (V10 m ρ) c).trans (by
    show BiasRelu.act (W10 m ρ c (Proc.devRef .tc main_v47)) (W10 m ρ c (Proc.devRef .tc main_v48)) = _
    rw [agg10 m ρ c (msg1 m ρ c), bias10 m ρ c]
    exact BiasRelu.act_eq _ _ Cert.ReferenceIdeal.Facts₀.bcast_S16_S1x16_1 Cert.ReferenceIdeal.Facts₀.bcast_S1x16_S100000x16_0_1 Cert.ReferenceIdeal.Facts₀.bcast_S_S100000x16))

/-- After region 3 its output array holds the second dense transform. -/
theorem dense2 (c : Dev nD) : W12 m ρ c (Proc.devRef .tc main_v50) = Cert.ReferenceIdeal.ReadP.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W12_arr m ρ c 2).trans ((DenseOut.final (V11 m ρ) c).trans (by
    show DenseOut.prod (W11 m ρ c (Proc.devRef .tc main_v49)) (W11 m ρ c (Proc.devRef .tc main_arg4)) = _
    rw [act1 m ρ c, arg411 m ρ c]
    exact DenseOut.prod_eq_dot _ _))

/-- After region 4, the rows below the padding are the second layer's messages. -/
theorem msg2 (c : Dev nD) :
    extractStridedSlice S3300000x2 ![0, 0] (W17 m ρ c (Proc.devRef .tc main_v60)) slices_S3301376x2_S3300000x2_0_0
      = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show W17 m ρ c (Proc.devRef .tc main_v60) = ScaleOut.scaled (W16 m ρ c (Proc.devRef .tc main_v58)) (W16 m ρ c (Proc.devRef .tc main_v59)) from
    (W17_arr m ρ c 2).trans (ScaleOut.final (V16 m ρ) c)]
  rw [gath16 m ρ c (dense2 m ρ c), npad16 m ρ c]
  exact ScaleOut.msg_eq _ _ _ _ Cert.ReferenceIdeal.Facts₀.bcast_S3300000x1_S3300000x2_0_1

/-- The result array after the last region is the reference's result. -/
theorem out (c : Dev nD) : W19 m ρ c (Proc.devRef .tc main_v66) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W19_arr m ρ c 2).trans ((BiasOut.final (V18 m ρ) c).trans (by
    show BiasOut.shifted (W18 m ρ c (Proc.devRef .tc main_v64)) (W18 m ρ c (Proc.devRef .tc main_v65)) = _
    rw [agg18 m ρ c (msg2 m ρ c), bias18 m ρ c]
    exact BiasOut.shifted_eq _ _ Cert.ReferenceIdeal.Facts₀.bcast_S2_S1x2_1 Cert.ReferenceIdeal.Facts₀.bcast_S1x2_S100000x2_0_1))

end Cert.KernelIdeal.Chain

end
-- ==== Proof.lean ====
/-
  Two GCN layers on a graph of 100000 nodes and 3200000 edges (with the self loops, 3300000): each layer is
  out = D^(-1/2) (A + I) D^(-1/2) (X W) + b, with a clamp at zero after the first. The kernel program
  computes the normalisation coefficients norm = dinv[src] · dinv[dst] once, and per layer runs three regions:
  the dense transform X W in blocks of 5000 rows, the row scaling of the gathered rows h[src] by norm in blocks of
  8192 rows (both operands padded with 1376 zero rows to 403 whole blocks, the padding cut off afterwards), and
  the bias (and clamp) in blocks of 5000 rows; the gather h[src] and the sum per target node stay host operations.
  The reference computes the same on the host, the coefficients once per layer, with the product written
  norm · h[src] where the kernel has h[src] · norm.

  At the ideal instance both programs end at the same function of the arguments: the blocks of each region tile
  its array, so each region's output is one whole-array function of its inputs; a matrix product into a zero
  accumulator is the host's dot product (the same finite sum); a change of float format is the identity; padding,
  scaling and cutting back is the scaling of the unpadded rows; and the product of two extended reals commutes,
  which is the only law the comparison uses: no input needs to be finite.
  The frames of the two kernel programs are the generated ones; the reference's frame is its run with the
  result dropped; no operation was rewritten by the idealisation, so there is nothing to preserve.
-/
import proofs.«156685_j47605417509108_1_alg».proof.Defs
import proofs.«156685_j47605417509108_1_alg».proof.Proof.Gen.Kernel
import proofs.«156685_j47605417509108_1_alg».proof.Proof.Gen.Kernel.Skeleton
import proofs.«156685_j47605417509108_1_alg».proof.Proof.Gen.Kernel.Launch
import proofs.«156685_j47605417509108_1_alg».proof.Proof.Gen.Kernel.Points
import proofs.«156685_j47605417509108_1_alg».proof.Proof.Gen.Kernel.Frame
import proofs.«156685_j47605417509108_1_alg».proof.Proof.Gen.KernelIdeal
import proofs.«156685_j47605417509108_1_alg».proof.Proof.Gen.KernelIdeal.Skeleton
import proofs.«156685_j47605417509108_1_alg».proof.Proof.Gen.KernelIdeal.Launch
import proofs.«156685_j47605417509108_1_alg».proof.Proof.Gen.KernelIdeal.Points
import proofs.«156685_j47605417509108_1_alg».proof.Proof.Gen.KernelIdeal.Frame
import proofs.«156685_j47605417509108_1_alg».proof.Proof.Gen.ReferenceIdeal
import proofs.«156685_j47605417509108_1_alg».proof.Proof.Gen.Pre_finite_inputs
import proofs.«156685_j47605417509108_1_alg».proof.Proof.KernelRun
import proofs.«156685_j47605417509108_1_alg».proof.Proof.RefRun
import proofs.«156685_j47605417509108_1_alg».proof.Proof.RefRead
import proofs.«156685_j47605417509108_1_alg».proof.Proof.Chain
import Idealize.ShloMosaic.Adequacy
import Idealize.ShloMosaic.Init

noncomputable section

namespace Cert.Proof

open Idealize.ShloMosaic Idealize.SL.Sem

/-- The kernel program's run ends with the result array at the last region's exit contents, the reference's run
    with its result at the reference's last stage; from agreeing arguments the two are one function. -/
theorem algebraic : Cert.algebraic_KernelIdeal_ReferenceIdeal := by
  intro m ρ m' ρ' _ hagree
  refine ⟨fun c => Cert.KernelIdeal.Gen.W19 (F := Ideal) m ρ c (Proc.devRef .tc Cert.KernelIdeal.main_v66),
    Cert.KernelIdeal.Run.run_named (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v91_eq, (hagree c).1, (hagree c).2.1, (hagree c).2.2.1, (hagree c).2.2.2.1,
    (hagree c).2.2.2.2.1, (hagree c).2.2.2.2.2]
  exact (Cert.KernelIdeal.Chain.out m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunP.run (F := Ideal) m ρ),
  trivial,
  algebraic⟩

end Cert.Proof

end
